-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x100 : Shape := ⟨3, ![128, 128, 100]⟩
abbrev S128x32x32 : Shape := ⟨3, ![128, 32, 32]⟩
abbrev S400x1024 : Shape := ⟨2, ![400, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S800x1024 : Shape := ⟨2, ![800, 1024]⟩
abbrev S_ : Shape := ⟨0, ![]⟩

class Facts : Prop where
  bcast_S_S128x128x100 : S_.BroadcastsInDim S128x128x100 (![] : Fin 0 → Fin S128x128x100.rank)
  reducesTo_S128x128x100_S_d0_1_2 : S128x128x100.ReducesTo [0, 1, 2] S_
  h_S_ : 0 < S_.numel
  bcast_S_S128x32x32 : S_.BroadcastsInDim S128x32x32 (![] : Fin 0 → Fin S128x32x32.rank)
  reducesTo_S128x32x32_S_d0_1_2 : S128x32x32.ReducesTo [0, 1, 2] S_
  bcast_S_S400x1024 : S_.BroadcastsInDim S400x1024 (![] : Fin 0 → Fin S400x1024.rank)
  reducesTo_S400x1024_S_d0_1 : S400x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  bcast_S_S800x1024 : S_.BroadcastsInDim S800x1024 (![] : Fin 0 → Fin S800x1024.rank)
  reducesTo_S800x1024_S_d0_1 : S800x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x1 .f32) (main_arg13 : FVec F S1 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1 .f32 := Host.absf main_arg12
  let main_cst_22 : FVec F S_ .f32 := constant S_ .f32 0x7F800000#32
  let main_v60 : FVec F S1024x1 .f32 := broadcastInDim S1024x1 ![] bcast_S_S1024x1 main_cst_22
  let main_v61 : IVec S1024x1 1 := cmpf .olt main_v59 main_v60
  let main_c_23 : IVec S_ 1 := constantI S_ 1 1#1
  let main_v62 : IVec S_ 1 := (fun x v => Host.reduce IntOp.andi x v reducesTo_S1024x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S1 .f32) (main_arg8 : FVec F S800x1024 .f32) (main_arg9 : FVec F S1024 .f32) (main_arg10 : FVec F S1024x1024 .f32) (main_arg11 : FVec F S1024 .f32) (main_arg12 : FVec F S1024x1 .f32) (main_arg13 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S800x1024 .f32 := Host.absf main_arg8
  let main_cst_14 : FVec F S_ .f32 := constant S_ .f32 0x7F800000#32
  let main_v40 : FVec F S800x1024 .f32 := broadcastInDim S800x1024 ![] bcast_S_S800x1024 main_cst_14
  let main_v41 : IVec S800x1024 1 := cmpf .olt main_v39 main_v40
  let main_c_15 : IVec S_ 1 := constantI S_ 1 1#1
  let main_v42 : IVec S_ 1 := (fun x v => Host.reduce IntOp.andi x v reducesTo_S800x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x1 .f32) (main_arg7 : FVec F S1 .f32) (main_arg8 : FVec F S800x1024 .f32) (main_arg9 : FVec F S1024 .f32) (main_arg10 : FVec F S1024x1024 .f32) (main_arg11 : FVec F S1024 .f32) (main_arg12 : FVec F S1024x1 .f32) (main_arg13 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg6
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S128x128x100 .f32) (main_arg1 : FVec F S128x32x32 .f32) (main_arg2 : FVec F S400x1024 .f32) (main_arg3 : FVec F S1024 .f32) (main_arg4 : FVec F S1024x1024 .f32) (main_arg5 : FVec F S1024 .f32) (main_arg6 : FVec F S1024x1 .f32) (main_arg7 : FVec F S1 .f32) (main_arg8 : FVec F S800x1024 .f32) (main_arg9 : FVec F S1024 .f32) (main_arg10 : FVec F S1024x1024 .f32) (main_arg11 : FVec F S1024 .f32) (main_arg12 : FVec F S1024x1 .f32) (main_arg13 : FVec F S1 .f32) : IVec S_ 1 :=
  let main_v0 : FVec F S128x128x100 .f32 := Host.absf main_arg0
  let main_cst : FVec F S_ .f32 := constant S_ .f32 0x7F800000#32
  let main_v1 : FVec F S128x128x100 .f32 := broadcastInDim S128x128x100 ![] bcast_S_S128x128x100 main_cst
  let main_v2 : IVec S128x128x100 1 := cmpf .olt main_v0 main_v1
  let main_c : IVec S_ 1 := constantI S_ 1 1#1
  let main_v3 : IVec S_ 1 := (fun x v => Host.reduce IntOp.andi x v reducesTo_S128x128x100_S_d0_1_2 h_S_) main_v2 main_c
  let main_v4 : FVec F S128x32x32 .f32 := Host.absf main_arg1
  let main_cst_0 : FVec F S_ .f32 := constant S_ .f32 0x7F800000#32
  let main_v5 : FVec F S128x32x32 .f32 := broadcastInDim S128x32x32 ![] bcast_S_S128x32x32 main_cst_0
  let main_v6 : IVec S128x32x32 1 := cmpf .olt main_v4 main_v5
  let main_c_1 : IVec S_ 1 := constantI S_ 1 1#1
  let main_v7 : IVec S_ 1 := (fun x v => Host.reduce IntOp.andi x v reducesTo_S128x32x32_S_d0_1_2 h_S_) main_v6 main_c_1
  let main_v8 : IVec S_ 1 := andi main_v3 main_v7
  let main_v9 : FVec F S400x1024 .f32 := Host.absf main_arg2
  let main_cst_2 : FVec F S_ .f32 := constant S_ .f32 0x7F800000#32
  let main_v10 : FVec F S400x1024 .f32 := broadcastInDim S400x1024 ![] bcast_S_S400x1024 main_cst_2
  let main_v11 : IVec S400x1024 1 := cmpf .olt main_v9 main_v10
  let main_c_3 : IVec S_ 1 := constantI S_ 1 1#1
  let main_v12 : IVec S_ 1 := (fun x v => Host.reduce IntOp.andi x v reducesTo_S400x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S128x128x100 : Shape := ⟨3, ![128, 128, 100]⟩
abbrev S128x32x32 : Shape := ⟨3, ![128, 32, 32]⟩
abbrev S400x1024 : Shape := ⟨2, ![400, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S800x1024 : Shape := ⟨2, ![800, 1024]⟩
abbrev S128x32x400 : Shape := ⟨3, ![128, 32, 400]⟩
abbrev S1x1024 : Shape := ⟨2, ![1, 1024]⟩
abbrev S1x1 : Shape := ⟨2, ![1, 1]⟩
abbrev S128x1x1 : Shape := ⟨3, ![128, 1, 1]⟩
abbrev S1x32x400 : Shape := ⟨3, ![1, 32, 400]⟩
abbrev S1x32x32 : Shape := ⟨3, ![1, 32, 32]⟩
abbrev S1x1x1 : Shape := ⟨3, ![1, 1, 1]⟩
abbrev S32x400 : Shape := ⟨2, ![32, 400]⟩
abbrev S32x32 : Shape := ⟨2, ![32, 32]⟩
abbrev S32x1024 : Shape := ⟨2, ![32, 1024]⟩
abbrev S32x1 : Shape := ⟨2, ![32, 1]⟩
abbrev S32x1x1024 : Shape := ⟨3, ![32, 1, 1024]⟩
abbrev S1x32x1024 : Shape := ⟨3, ![1, 32, 1024]⟩
abbrev S32x32x1024 : Shape := ⟨3, ![32, 32, 1024]⟩
abbrev S1x1x1024 : Shape := ⟨3, ![1, 1, 1024]⟩
abbrev S32 : Shape := ⟨1, ![32]⟩
abbrev S128x1 : Shape := ⟨2, ![128, 1]⟩

abbrev nBuf : Space → Nat
  | .hbm => 32
  | .vmem => 19
  | .smem => 0
  | _ => 0

abbrev bufTy : (tb : Table) → Fin (tcTables nBuf tb) → BufTy
  | .hbm, ⟨0, _⟩ => ⟨S128x128x100, .f32⟩
  | .hbm, ⟨1, _⟩ => ⟨S128x32x32, .f32⟩
  | .hbm, ⟨2, _⟩ => ⟨S400x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S800x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1, .f32⟩
  | .hbm, ⟨13, _⟩ => ⟨S1, .f32⟩
  | .hbm, ⟨14, _⟩ => ⟨S128x32x400, .f32⟩
  | .hbm, ⟨15, _⟩ => ⟨S400x1024, .bf16⟩
  | .hbm, ⟨16, _⟩ => ⟨S1024x1024, .bf16⟩
  | .hbm, ⟨17, _⟩ => ⟨S1024x1, .bf16⟩
  | .hbm, ⟨18, _⟩ => ⟨S400x1024, .f32⟩
  | .hbm, ⟨19, _⟩ => ⟨S400x1024, .bf16⟩
  | .hbm, ⟨20, _⟩ => ⟨S400x1024, .f32⟩
  | .hbm, ⟨21, _⟩ => ⟨S400x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1, .f32⟩
  | .hbm, ⟨30, _⟩ => ⟨S128x1x1, .f32⟩
  | .hbm, ⟨31, _⟩ => ⟨S128x1, .f32⟩
  | .local _ .vmem, ⟨0, _⟩ => ⟨S1x32x400, .f32⟩
  | .local _ .vmem, ⟨1, _⟩ => ⟨S1x32x400, .f32⟩
  | .local _ .vmem, ⟨2, _⟩ => ⟨S1x32x32, .f32⟩
  | .local _ .vmem, ⟨3, _⟩ => ⟨S1x32x32, .f32⟩
  | .local _ .vmem, ⟨4, _⟩ => ⟨S400x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1, .bf16⟩
  | .local _ .vmem, ⟨9, _⟩ => ⟨S1x1, .f32⟩
  | .local _ .vmem, ⟨10, _⟩ => ⟨S400x1024, .bf16⟩
  | .local _ .vmem, ⟨11, _⟩ => ⟨S400x1024, .bf16⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1, .f32⟩
  | .local _ .vmem, ⟨17, _⟩ => ⟨S1x1x1, .f32⟩
  | .local _ .vmem, ⟨18, _⟩ => ⟨S1x1x1, .f32⟩
  | _, _ => ⟨S128x128x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S400x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S400x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S400x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S128x128x100_S128x32x400 : S128x128x100.ShapeCasts S128x32x400
  bitsLt_bf16_f32 : FTy.bits .bf16 < FTy.bits .f32
  slices_S800x1024_S400x1024_0_0 : S800x1024.Slices ![0, 0] S400x1024
  slices_S800x1024_S400x1024_400_0 : S800x1024.Slices ![400, 0] S400x1024
  shapeCasts_S1024_S1x1024 : S1024.ShapeCasts S1x1024
  shapeCasts_S1_S1x1 : S1.ShapeCasts S1x1
  shapeCasts_S1024x1_S1x1024 : S1024x1.ShapeCasts S1x1024
  inb_S1x32x400_S1x32x400_0_0_0 : ∀ a, (![0, 0, 0] : Fin 3 → Nat) a + S1x32x400.size a ≤ S1x32x400.size a
  h_S1x32x400 : 0 < S1x32x400.numel
  shapeCasts_S1x32x400_S32x400 : S1x32x400.ShapeCasts S32x400
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  inb_S400x1024_S400x1024_0_0 : ∀ a, (![0, 0] : Fin 2 → Nat) a + S400x1024.size a ≤ S400x1024.size a
  h_S400x1024 : 0 < S400x1024.numel
  shapeCasts_S400x1024_S400x1024 : S400x1024.ShapeCasts S400x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S32x1024 : S1x1024.Broadcasts S32x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32x1 : S1x1.Broadcasts S32x1
  reduces_S32x1_S1 : S32x1.Reduces [0] S1
  shapeCasts_S32x1024_S32x1x1024 : S32x1024.ShapeCasts S32x1x1024
  shapeCasts_S32x1024_S1x32x1024 : S32x1024.ShapeCasts S1x32x1024
  broadcasts_S32x1x1024_S32x32x1024 : S32x1x1024.Broadcasts S32x32x1024
  broadcasts_S1x32x1024_S32x32x1024 : S1x32x1024.Broadcasts S32x32x1024
  shapeCasts_S1x1024_S1x1x1024 : S1x1024.ShapeCasts S1x1x1024
  broadcasts_S1x1x1024_S32x32x1024 : S1x1x1024.Broadcasts S32x32x1024
  shapeCasts_S32x32x1024_S1024x1024 : S32x32x1024.ShapeCasts S1024x1024
  broadcasts_S1x1024_S1024x1024 : S1x1024.Broadcasts S1024x1024
  shapeCasts_S1024x1024_S32x32x1024 : S1024x1024.ShapeCasts S32x32x1024
  reduces_S32x32x1024_S32x32 : S32x32x1024.Reduces [2] S32x32
  broadcasts_S1x1_S32x32 : S1x1.Broadcasts S32x32
  reduces_S32x32_S32 : S32x32.Reduces [1] S32
  shapeCasts_S32_S32x1 : S32.ShapeCasts S32x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S128x1x1_S128x1 : S128x1x1.ShapeCasts S128x1
  dot_S32x400_S400x1024_S32x1024_1_0_0_1_n_n_wf : DotDims.WF S32x400 S400x1024 S32x1024 [1] [0] [0] [1] [] []
  dot_S32x1024_S1024x1024_S32x1024_1_0_0_1_n_n_wf : DotDims.WF S32x1024 S1024x1024 S32x1024 [1] [0] [0] [1] [] []
  dot_S32x1024_S1024x1_S32x1_1_0_0_1_n_n_wf : DotDims.WF S32x1024 S1024x1 S32x1 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x400.size a ≤ S128x32x400.size a
  hwx0_0 : ∀ i : grid0.Coords, EltTy.bits .f32 = 32 ∨ (Rect.block (s := S128x32x400) S1x32x400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32.size a ≤ S128x32x32.size a
  hwx0_1 : ∀ i : grid0.Coords, EltTy.bits .f32 = 32 ∨ (Rect.block (s := S128x32x32) S1x32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400x1024.size a ≤ S400x1024.size a
  hwx0_2 : ∀ i : grid0.Coords, EltTy.bits .bf16 = 32 ∨ (Rect.block (s := S400x1024) S400x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S1024x1.size a
  hwx0_6 : ∀ i : grid0.Coords, EltTy.bits .bf16 = 32 ∨ (Rect.block (s := S1024x1) S1024x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S400x1024.size a ≤ S400x1024.size a
  hwx0_8 : ∀ i : grid0.Coords, EltTy.bits .bf16 = 32 ∨ (Rect.block (s := S400x1024) S400x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S400x1024.size a ≤ S400x1024.size a
  hwx0_9 : ∀ i : grid0.Coords, EltTy.bits .bf16 = 32 ∨ (Rect.block (s := S400x1024) S400x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1x1.size a ≤ S128x1x1.size a
  hwx0_15 : ∀ i : grid0.Coords, EltTy.bits .f32 = 32 ∨ (Rect.block (s := S128x1x1) S1x1x1.size (cc0_transform_15 i) (hinb0_15 i)).WholeWords (EltTy.packing .f32)

variable [Facts₀]

def dot_S32x400_S400x1024_S32x1024_1_0_0_1_n_n : DotDims S32x400 S400x1024 S32x1024 where
  lhsContracting := [1]
  rhsContracting := [0]
  lhsNonContracting := [0]
  rhsNonContracting := [1]
  lhsBatch := []
  rhsBatch := []
  wf := dot_S32x400_S400x1024_S32x1024_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024_S1024x1_S32x1_1_0_0_1_n_n : DotDims S32x1024 S1024x1 S32x1 where
  lhsContracting := [1]
  rhsContracting := [0]
  lhsNonContracting := [0]
  rhsNonContracting := [1]
  lhsBatch := []
  rhsBatch := []
  wf := dot_S32x1024_S1024x1_S32x1_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1x32x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S400x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S400x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S400x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v15) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16) S1x1x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S128x128x100 : Shape := ⟨3, ![128, 128, 100]⟩
abbrev S128x32x32 : Shape := ⟨3, ![128, 32, 32]⟩
abbrev S400x1024 : Shape := ⟨2, ![400, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S800x1024 : Shape := ⟨2, ![800, 1024]⟩
abbrev S128x32x4x100 : Shape := ⟨4, ![128, 32, 4, 100]⟩
abbrev S4096x400 : Shape := ⟨2, ![4096, 400]⟩
abbrev S4096x1024 : Shape := ⟨2, ![4096, 1024]⟩
abbrev S1x1024 : Shape := ⟨2, ![1, 1024]⟩
abbrev S_ : Shape := ⟨0, ![]⟩
abbrev S4096x1 : Shape := ⟨2, ![4096, 1]⟩
abbrev S1x1 : Shape := ⟨2, ![1, 1]⟩
abbrev S128x32 : Shape := ⟨2, ![128, 32]⟩
abbrev S128 : Shape := ⟨1, ![128]⟩
abbrev S128x1 : Shape := ⟨2, ![128, 1]⟩
abbrev S128x32x1x4x100 : Shape := ⟨5, ![128, 32, 1, 4, 100]⟩
abbrev S128x32x32x4x100 : Shape := ⟨5, ![128, 32, 32, 4, 100]⟩
abbrev S128x1x32x4x100 : Shape := ⟨5, ![128, 1, 32, 4, 100]⟩
abbrev S128x32x32x8x100 : Shape := ⟨5, ![128, 32, 32, 8, 100]⟩
abbrev S131072x800 : Shape := ⟨2, ![131072, 800]⟩
abbrev S131072x1024 : Shape := ⟨2, ![131072, 1024]⟩
abbrev S131072x1 : Shape := ⟨2, ![131072, 1]⟩

abbrev nBuf : Space → Nat
  | .hbm => 68
  | .vmem => 0
  | .smem => 0
  | _ => 0

abbrev bufTy : (tb : Table) → Fin (tcTables nBuf tb) → BufTy
  | .hbm, ⟨0, _⟩ => ⟨S128x128x100, .f32⟩
  | .hbm, ⟨1, _⟩ => ⟨S128x32x32, .f32⟩
  | .hbm, ⟨2, _⟩ => ⟨S400x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S800x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1, .f32⟩
  | .hbm, ⟨13, _⟩ => ⟨S1, .f32⟩
  | .hbm, ⟨14, _⟩ => ⟨S128x32x4x100, .f32⟩
  | .hbm, ⟨15, _⟩ => ⟨S4096x400, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1, .f32⟩
  | .hbm, ⟨31, _⟩ => ⟨S1x1, .f32⟩
  | .hbm, ⟨32, _⟩ => ⟨S4096x1, .f32⟩
  | .hbm, ⟨33, _⟩ => ⟨S4096x1, .f32⟩
  | .hbm, ⟨34, _⟩ => ⟨S128x32, .f32⟩
  | .hbm, ⟨35, _⟩ => ⟨S_, .f32⟩
  | .hbm, ⟨36, _⟩ => ⟨S128, .f32⟩
  | .hbm, ⟨37, _⟩ => ⟨S128x1, .f32⟩
  | .hbm, ⟨38, _⟩ => ⟨S128x32x1x4x100, .f32⟩
  | .hbm, ⟨39, _⟩ => ⟨S128x32x32x4x100, .f32⟩
  | .hbm, ⟨40, _⟩ => ⟨S128x1x32x4x100, .f32⟩
  | .hbm, ⟨41, _⟩ => ⟨S128x32x32x4x100, .f32⟩
  | .hbm, ⟨42, _⟩ => ⟨S128x32x32x8x100, .f32⟩
  | .hbm, ⟨43, _⟩ => ⟨S131072x800, .f32⟩
  | .hbm, ⟨44, _⟩ => ⟨S131072x1024, .f32⟩
  | .hbm, ⟨45, _⟩ => ⟨S1x1024, .f32⟩
  | .hbm, ⟨46, _⟩ => ⟨S131072x1024, .f32⟩
  | .hbm, ⟨47, _⟩ => ⟨S131072x1024, .f32⟩
  | .hbm, ⟨48, _⟩ => ⟨S_, .f32⟩
  | .hbm, ⟨49, _⟩ => ⟨S131072x1024, .f32⟩
  | .hbm, ⟨50, _⟩ => ⟨S131072x1024, .f32⟩
  | .hbm, ⟨51, _⟩ => ⟨S131072x1024, .f32⟩
  | .hbm, ⟨52, _⟩ => ⟨S1x1024, .f32⟩
  | .hbm, ⟨53, _⟩ => ⟨S131072x1024, .f32⟩
  | .hbm, ⟨54, _⟩ => ⟨S131072x1024, .f32⟩
  | .hbm, ⟨55, _⟩ => ⟨S_, .f32⟩
  | .hbm, ⟨56, _⟩ => ⟨S131072x1024, .f32⟩
  | .hbm, ⟨57, _⟩ => ⟨S131072x1024, .f32⟩
  | .hbm, ⟨58, _⟩ => ⟨S131072x1, .f32⟩
  | .hbm, ⟨59, _⟩ => ⟨S1x1, .f32⟩
  | .hbm, ⟨60, _⟩ => ⟨S131072x1, .f32⟩
  | .hbm, ⟨61, _⟩ => ⟨S131072x1, .f32⟩
  | .hbm, ⟨62, _⟩ => ⟨S128x32x32, .f32⟩
  | .hbm, ⟨63, _⟩ => ⟨S128x32x32, .f32⟩
  | .hbm, ⟨64, _⟩ => ⟨S_, .f32⟩
  | .hbm, ⟨65, _⟩ => ⟨S128, .f32⟩
  | .hbm, ⟨66, _⟩ => ⟨S128x1, .f32⟩
  | .hbm, ⟨67, _⟩ => ⟨S128x1, .f32⟩
  | _, _ => ⟨S128x128x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_cst : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call2_cst : Ref sig .tc := ⟨.hbm, 48, rfl⟩
abbrev main_call2_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call3_cst : Ref sig .tc := ⟨.hbm, 55, rfl⟩
abbrev main_call3_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  shapeCasts_S128x128x100_S128x32x4x100 : S128x128x100.ShapeCasts S128x32x4x100
  shapeCasts_S128x32x4x100_S4096x400 : S128x32x4x100.ShapeCasts S4096x400
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S128x32 : S4096x1.ShapeCasts S128x32
  reducesTo_S128x32_S128_d1 : S128x32.ReducesTo [1] S128
  h_S_ : 0 < S_.numel
  bcast_S128_S128x1_0 : S128.BroadcastsInDim S128x1 (![0] : Fin 1 → Fin S128x1.rank)
  bcast_S128x32x4x100_S128x32x1x4x100_0_1_3_4 : S128x32x4x100.BroadcastsInDim S128x32x1x4x100 (![0, 1, 3, 4] : Fin 4 → Fin S128x32x1x4x100.rank)
  bcast_S128x32x1x4x100_S128x32x32x4x100_0_1_2_3_4 : S128x32x1x4x100.BroadcastsInDim S128x32x32x4x100 (![0, 1, 2, 3, 4] : Fin 5 → Fin S128x32x32x4x100.rank)
  bcast_S128x32x4x100_S128x1x32x4x100_0_2_3_4 : S128x32x4x100.BroadcastsInDim S128x1x32x4x100 (![0, 2, 3, 4] : Fin 4 → Fin S128x1x32x4x100.rank)
  bcast_S128x1x32x4x100_S128x32x32x4x100_0_1_2_3_4 : S128x1x32x4x100.BroadcastsInDim S128x32x32x4x100 (![0, 1, 2, 3, 4] : Fin 5 → Fin S128x32x32x4x100.rank)
  concatenates_S128x32x32x4x100_S128x32x32x4x100_S128x32x32x8x100_d3 : Shape.Concatenates [S128x32x32x4x100, S128x32x32x4x100] S128x32x32x8x100 3
  shapeCasts_S128x32x32x8x100_S131072x800 : S128x32x32x8x100.ShapeCasts S131072x800
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  bcast_S1x1_S131072x1_0_1 : S1x1.BroadcastsInDim S131072x1 (![0, 1] : Fin 2 → Fin S131072x1.rank)
  shapeCasts_S131072x1_S128x32x32 : S131072x1.ShapeCasts S128x32x32
  reducesTo_S128x32x32_S128_d1_2 : S128x32x32.ReducesTo [1, 2] S128
  dot_S4096x400_S400x1024_S4096x1024_1_0_0_1_n_n_wf : DotDims.WF S4096x400 S400x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x1_S4096x1_1_0_0_1_n_n_wf : DotDims.WF S4096x1024 S1024x1 S4096x1 [1] [0] [0] [1] [] []
  dot_S131072x800_S800x1024_S131072x1024_1_0_0_1_n_n_wf : DotDims.WF S131072x800 S800x1024 S131072x1024 [1] [0] [0] [1] [] []
  dot_S131072x1024_S1024x1024_S131072x1024_1_0_0_1_n_n_wf : DotDims.WF S131072x1024 S1024x1024 S131072x1024 [1] [0] [0] [1] [] []
  dot_S131072x1024_S1024x1_S131072x1_1_0_0_1_n_n_wf : DotDims.WF S131072x1024 S1024x1 S131072x1 [1] [0] [0] [1] [] []

variable [Facts₀]

def dot_S4096x400_S400x1024_S4096x1024_1_0_0_1_n_n : DotDims S4096x400 S400x1024 S4096x1024 where
  lhsContracting := [1]
  rhsContracting := [0]
  lhsNonContracting := [0]
  rhsNonContracting := [1]
  lhsBatch := []
  rhsBatch := []
  wf := dot_S4096x400_S400x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf
def dot_S131072x800_S800x1024_S131072x1024_1_0_0_1_n_n : DotDims S131072x800 S800x1024 S131072x1024 where
  lhsContracting := [1]
  rhsContracting := [0]
  lhsNonContracting := [0]
  rhsNonContracting := [1]
  lhsBatch := []
  rhsBatch := []
  wf := dot_S131072x800_S800x1024_S131072x1024_1_0_0_1_n_n_wf
def dot_S131072x1024_S1024x1024_S131072x1024_1_0_0_1_n_n : DotDims S131072x1024 S1024x1024 S131072x1024 where
  lhsContracting := [1]
  rhsContracting := [0]
  lhsNonContracting := [0]
  rhsNonContracting := [1]
  lhsBatch := []
  rhsBatch := []
  wf := dot_S131072x1024_S1024x1024_S131072x1024_1_0_0_1_n_n_wf
def dot_S131072x1024_S1024x1_S131072x1_1_0_0_1_n_n : DotDims S131072x1024 S1024x1 S131072x1 where
  lhsContracting := [1]
  rhsContracting := [0]
  lhsNonContracting := [0]
  rhsNonContracting := [1]
  lhsBatch := []
  rhsBatch := []
  wf := dot_S131072x1024_S1024x1_S131072x1_1_0_0_1_n_n_wf

class Facts : Prop extends Facts₀ where

variable [Facts]
-- ==== Proof.KernelRun.lean ====
/-
  The kernel's run, read back.  Grid point t writes ONE number, its batch element's energy, into block t of the
  128 × 1 × 1 output array; the 128 blocks tile the array, so after the run entry (b, 0, 0) holds point b's number; the
  host line after the region re-lays the array as 128 × 1, so entry (b, 0) of the result holds it too.
-/
import proofs.«101939_j86011015070455_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.BlockRun

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The number grid point t writes: the body's result over the windows' blocks at t, at its single entry. -/
def energyAt (c : Dev nD) (t : Fin cfg0.N) : Elt F .f32 :=
  out0_15 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (ix3 0 0 0)

/-- A batch number as a grid point. -/
abbrev point (b : Fin 128) : Fin cfg0.N := ⟨b.val, b.isLt⟩

/-- The 128 × 1 × 1 array holding point b's number at (b, 0, 0). -/
def column (c : Dev nD) : S128x1x1.Idx → Elt F .f32 := fun i => energyAt m c (point (i 0))

/-- The output window's block index at point t is (t, 0, 0), decided over the 128 points. -/
theorem out_index : ∀ t : Fin cfg0.N, win0_15.index t (0 : Fin 3) = t.val ∧ win0_15.index t (1 : Fin 3) = 0 ∧ win0_15.index t (2 : Fin 3) = 0 :=
  (by decide +kernel : ∀ t : Fin grid0.N, _)

/-- What point t writes back is block t of the column. -/
theorem flushed_eq (c : Dev nD) (t : Fin cfg0.N) :
    (dats m 0 c).flushed 15 t = ((cfg0.win 15).blk t).view.read (Elt F) (column m c) := by
  show (cfg0.win 15).cut (grid0.coords t) ((dats m 0 c).after 15 t) = _
  rw [after0_15]
  funext j
  have h0 : (j 0).val < 1 := (j 0).isLt
  have h1 : (j 1).val < 1 := (j 1).isLt
  have h2 : (j 2).val < 1 := (j 2).isLt
  obtain ⟨e0, e1, e2⟩ := out_index t
  have hp : point ((((cfg0.win 15).blk t).view.emb j) 0) = t := Fin.ext (by
    show win0_15.index t (0 : Fin 3) * 1 + 1 * (j 0).val = t.val; omega)
  have hj : (j : S1x1x1.Idx) = ix3 0 0 0 := funext fun a => Fin.ext (by
    match a with
    | ⟨0, _⟩ => show (j 0).val = 0; omega
    | ⟨1, _⟩ => show (j 1).val = 0; omega
    | ⟨2, _⟩ => show (j 2).val = 0; omega)
  show out0_15 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) j
    = energyAt m c (point ((((cfg0.win 15).blk t).view.emb j) 0))
  rw [hp]
  unfold energyAt
  exact congrArg (out0_15 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t)) hj

/-- An index of the output array is in point t's block iff each coordinate is in the block's range on its axis. -/
theorem mem_blk (t : Fin cfg0.N) (i : S128x1x1.Idx) :
    i ∈ ((cfg0.win 15).blk t).view.set ↔ ∀ a : Fin 3, win0_15.index t a * S1x1x1.size a ≤ (i a).val ∧ (i a).val < win0_15.index t a * S1x1x1.size a + S1x1x1.size a := by
  show i ∈ ((View.whole main_v16).slice (win0_15.rect t)).set ↔ _
  rw [View.set_slice_whole, Rect.mem_set_unit]
  exact Iff.rfl

/-- Entry (b, 0, 0) lies in point b's block: the 128 blocks cover the array. -/
theorem cover (i : S128x1x1.Idx) : ∃ t : Fin cfg0.N, (cfg0.win 15).flush t = true ∧ i ∈ ((cfg0.win 15).blk t).view.set := by
  refine ⟨point (i 0), flush0_15 _, ?_⟩
  rw [mem_blk]
  obtain ⟨e0, e1, e2⟩ := out_index (point (i 0))
  have e0' : win0_15.index (point (i 0)) (0 : Fin 3) = (i 0).val := e0
  have h1 : (i 1).val < 1 := (i 1).isLt
  have h2 : (i 2).val < 1 := (i 2).isLt
  intro a
  match a with
  | ⟨0, _⟩ => show win0_15.index (point (i 0)) (0 : Fin 3) * 1 ≤ (i 0).val ∧ (i 0).val < win0_15.index (point (i 0)) (0 : Fin 3) * 1 + 1; omega
  | ⟨1, _⟩ => show win0_15.index (point (i 0)) (1 : Fin 3) * 1 ≤ (i 1).val ∧ (i 1).val < win0_15.index (point (i 0)) (1 : Fin 3) * 1 + 1; omega
  | ⟨2, _⟩ => show win0_15.index (point (i 0)) (2 : Fin 3) * 1 ≤ (i 2).val ∧ (i 2).val < win0_15.index (point (i 0)) (2 : Fin 3) * 1 + 1; omega

/-- The output array after the run is the column of the points' numbers. -/
theorem final (c : Dev nD) : (dats m 0 c).arrAt 15 cfg0.N = column m c :=
  (dats m 0 c).arrAt_eq_of_cover 15 (column m c) (fun t _ => flushed_eq m c t) cover

/-- The result buffer after the host line that follows the region. -/
theorem result_eq (c : Dev nD) :
    Pipeline.afterTail₀ cfgs (dats m) 0 (V0 m) [hostOps1] c main_v17 = fun y : S128x1.Idx => energyAt m c (point (y 0)) := by
  unfold Pipeline.afterTail₀
  show StableHlo.after hostOps1 _ (Proc.devRef .tc main_v17) = _
  after_results
  have hw : Pipeline.withArrays (cfgs 0).spec c (V0 m c) (fun w => (dats m 0 c).arrAt w (cfgs 0).N) (Proc.devRef .tc main_v16) = column m c :=
    (Pipeline.withArrays_arr spec0 launch0.win.arr_inj c _ _ 15).trans (final m c)
  funext y
  show shapeCast S128x1 (Pipeline.withArrays (cfgs 0).spec c (V0 m c) (fun w => (dats m 0 c).arrAt w (cfgs 0).N) (Proc.devRef .tc main_v16))
      shapeCasts_S128x1x1_S128x1 y = _
  rw [hw]
  have hy : (y 1).val < 1 := (y 1).isLt
  refine (shapeCast_apply (column m c) shapeCasts_S128x1x1_S128x1 y (ix3 (y 0) 0 0) (by
    rw [Shape.rowMajor_val_three, Shape.rowMajor_val_two]
    show ((y 0).val * 1 + 0) * 1 + 0 = (y 0).val * 1 + (y 1).val
    omega)).trans ?_
  rfl

/-- The kernel's run with its result named: entry (b, 0) holds point b's number; the arguments end as launched. -/
theorem run : θ_run defs (onTc (τ := τ) (main (F := F))) ⟨m, fun _ => 0, ρ⟩ (fun r => ∀ c : Dev nD,
      r.2.mem ((c.tc : Thread nD τ).loc main_v17) = (fun y : S128x1.Idx => energyAt m c (point (y 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c).2 main_v17 (Pipeline.mem_restRefs_of main_v17 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c))⟩)
    (run_main m ρ)

end Cert.KernelIdeal.BlockRun

end
-- ==== Proof.Energy.lean ====
/-
  The mathematics both programs compute, stated once over plain coordinates on the extended reals.

  For one batch element the result is an ENERGY: the sum over the 32 agents of a three-layer perceptron of the
  agent's 400 trajectory features, plus the sum over ordered pairs (i, j) of agents of the edge weight e i j times
  a second three-layer perceptron of the 800 features "agent i's, then agent j's".  A perceptron layer is
  `(Σ_k h k · W k u) + b u`, the activation is `max · 0`, and the last layer has one output.

  Two arrangements of the pair perceptron's FIRST layer appear.  Written over the concatenated 800 features it is
  one sum over 800 terms; written with the weight matrix cut into its upper and lower 400 rows it is the sum of
  two 400-term sums, one depending on agent i only and one on agent j only.  The two are equal in any commutative
  additive monoid (a sum over `Fin (400 + 400)` splits), so no finiteness of the entries is needed:
  `total_eq_block`.
-/
import Idealize.ShloMosaic.PureOps.Ideal
import Mathlib.Algebra.BigOperators.Fin

noncomputable section

namespace Cert.Energy

open Finset

/-- One perceptron layer before its activation: `(Σ_k h k · W k u) + b u`. -/
def dense {K N : ℕ} (h : Fin K → EReal) (W : Fin K → Fin N → EReal) (b : Fin N → EReal) (u : Fin N) : EReal :=
  (∑ k, h k * W k u) + b u

/-- The activation `max z 0` on the extended reals. -/
def relu (z : EReal) : EReal := max z 0

/-- The scalar head over a hidden layer `g`: a second hidden layer, its activation, and one output
    `(Σ_u relu(layer₂ u) · w3 u) + b3`. -/
def head (g : Fin 1024 → EReal) (W2 : Fin 1024 → Fin 1024 → EReal) (b2 : Fin 1024 → EReal)
    (w3 : Fin 1024 → EReal) (b3 : EReal) : EReal :=
  (∑ u, relu (dense g W2 b2 u) * w3 u) + b3

/-- The three-layer perceptron with one output. -/
def mlp {K : ℕ} (h : Fin K → EReal) (W1 : Fin K → Fin 1024 → EReal) (b1 : Fin 1024 → EReal)
    (W2 : Fin 1024 → Fin 1024 → EReal) (b2 : Fin 1024 → EReal) (w3 : Fin 1024 → EReal) (b3 : EReal) : EReal :=
  head (fun v => relu (dense h W1 b1 v)) W2 b2 w3 b3

/-- Agent i's 400 features followed by agent j's. -/
def pair (x y : Fin 400 → EReal) (k : Fin 800) : EReal :=
  if h : k.val < 400 then x ⟨k.val, h⟩ else y ⟨k.val - 400, by have := k.isLt; omega⟩

/-- The upper 400 rows of an 800-row matrix. -/
def upper (W : Fin 800 → Fin 1024 → EReal) (k : Fin 400) (u : Fin 1024) : EReal := W ⟨k.val, by have := k.isLt; omega⟩ u
/-- The lower 400 rows of an 800-row matrix. -/
def lower (W : Fin 800 → Fin 1024 → EReal) (k : Fin 400) (u : Fin 1024) : EReal := W ⟨400 + k.val, by have := k.isLt; omega⟩ u

/-- The pair perceptron's first hidden layer with the weight matrix cut in two: a term of agent i, a term of agent j,
    the bias, the activation. -/
def pairHidden (x y : Fin 400 → EReal) (Wa Wb : Fin 400 → Fin 1024 → EReal) (c1 : Fin 1024 → EReal) (v : Fin 1024) : EReal :=
  relu (((∑ k, x k * Wa k v) + ∑ k, y k * Wb k v) + c1 v)

/-- One batch element's energy, the first pair layer in its cut form. -/
def block (x : Fin 32 → Fin 400 → EReal) (e : Fin 32 → Fin 32 → EReal)
    (W1 : Fin 400 → Fin 1024 → EReal) (b1 : Fin 1024 → EReal) (W2 : Fin 1024 → Fin 1024 → EReal) (b2 : Fin 1024 → EReal)
    (w3 : Fin 1024 → EReal) (b3 : EReal)
    (Wa Wb : Fin 400 → Fin 1024 → EReal) (c1 : Fin 1024 → EReal) (V2 : Fin 1024 → Fin 1024 → EReal) (c2 : Fin 1024 → EReal)
    (v3 : Fin 1024 → EReal) (c3 : EReal) : EReal :=
  (∑ i, mlp (x i) W1 b1 W2 b2 w3 b3)
    + ∑ i, ∑ j, e i j * head (pairHidden (x i) (x j) Wa Wb c1) V2 c2 v3 c3

/-- One batch element's energy, the first pair layer over the concatenated 800 features. -/
def total (x : Fin 32 → Fin 400 → EReal) (e : Fin 32 → Fin 32 → EReal)
    (W1 : Fin 400 → Fin 1024 → EReal) (b1 : Fin 1024 → EReal) (W2 : Fin 1024 → Fin 1024 → EReal) (b2 : Fin 1024 → EReal)
    (w3 : Fin 1024 → EReal) (b3 : EReal)
    (W8 : Fin 800 → Fin 1024 → EReal) (c1 : Fin 1024 → EReal) (V2 : Fin 1024 → Fin 1024 → EReal) (c2 : Fin 1024 → EReal)
    (v3 : Fin 1024 → EReal) (c3 : EReal) : EReal :=
  (∑ i, mlp (x i) W1 b1 W2 b2 w3 b3)
    + ∑ i, ∑ j, e i j * mlp (pair (x i) (x j)) W8 c1 V2 c2 v3 c3

/-- A sum over 800 terms is the sum over the first 400 plus the sum over the last 400. -/
theorem sum_800 (f : Fin 800 → EReal) :
    ∑ k, f k = (∑ k : Fin 400, f ⟨k.val, by have := k.isLt; omega⟩) + ∑ k : Fin 400, f ⟨400 + k.val, by have := k.isLt; omega⟩ :=
  Fin.sum_univ_add (M := EReal) (a := 400) (b := 400) (fun k => f ⟨k.val, k.isLt⟩)

/-- Below 400 the concatenation reads agent i's features. -/
theorem pair_lo (x y : Fin 400 → EReal) (k : Fin 400) (h : k.val < 800) : pair x y ⟨k.val, h⟩ = x k := by
  have hk : k.val < 400 := k.isLt
  simp only [pair, hk, dite_true]

/-- From 400 on it reads agent j's. -/
theorem pair_hi (x y : Fin 400 → EReal) (k : Fin 400) (h : 400 + k.val < 800) : pair x y ⟨400 + k.val, h⟩ = y k := by
  have hk : ¬ (400 + k.val < 400) := by omega
  simp only [pair, hk, dite_false, Nat.add_sub_cancel_left]

/-- The first pair layer over the concatenation is the cut form. -/
theorem dense_pair (x y : Fin 400 → EReal) (W8 : Fin 800 → Fin 1024 → EReal) (c1 : Fin 1024 → EReal) (v : Fin 1024) :
    relu (dense (pair x y) W8 c1 v) = pairHidden x y (upper W8) (lower W8) c1 v := by
  unfold dense pairHidden upper lower
  rw [sum_800]
  simp only [pair_lo, pair_hi]

/-- The two arrangements of one batch element's energy agree. -/
theorem total_eq_block (x : Fin 32 → Fin 400 → EReal) (e : Fin 32 → Fin 32 → EReal)
    (W1 : Fin 400 → Fin 1024 → EReal) (b1 : Fin 1024 → EReal) (W2 : Fin 1024 → Fin 1024 → EReal) (b2 : Fin 1024 → EReal)
    (w3 : Fin 1024 → EReal) (b3 : EReal)
    (W8 : Fin 800 → Fin 1024 → EReal) (c1 : Fin 1024 → EReal) (V2 : Fin 1024 → Fin 1024 → EReal) (c2 : Fin 1024 → EReal)
    (v3 : Fin 1024 → EReal) (c3 : EReal) :
    total x e W1 b1 W2 b2 w3 b3 W8 c1 V2 c2 v3 c3
      = block x e W1 b1 W2 b2 w3 b3 (upper W8) (lower W8) c1 V2 c2 v3 c3 := by
  unfold total block mlp
  congr 1
  refine Finset.sum_congr rfl fun i _ => Finset.sum_congr rfl fun j _ => ?_
  congr 2
  funext v
  exact dense_pair (x i) (x j) W8 c1 v

end Cert.Energy

end
-- ==== Proof.TrajBlock.lean ====
/-
  The kernel body's trajectory part at one grid point, read at its single entry: the sum over the 32 agents of the
  three-layer perceptron of the agent's row of the block.
-/
import proofs.«101939_j86011015070455_1_alg».proof.Proof.Gen.KernelIdeal.Skeleton
import proofs.«101939_j86011015070455_1_alg».proof.Proof.Energy
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TrajBlock

open Idealize.ShloMosaic Idealize.ShloMosaic.ValueIdx Cert.KernelIdeal Cert.KernelIdeal.Gen Cert.Energy
open scoped BigOperators

/-! ## The three products read at an entry

Each product contracts the left operand's columns against the right operand's rows, so at entry (i, u) the left
operand is read at (i, k) and the right one at (k, u), k the summation index. -/

/-- The first layer's product [32,400] × [400,1024]: the left operand's row coordinate is the entry's. -/
theorem lhsA_0 (i : S32x1024.Idx) (q : dot_S32x400_S400x1024_S32x1024_1_0_0_1_n_n.contr.Idx) :
    (dot_S32x400_S400x1024_S32x1024_1_0_0_1_n_n.lhsIdx i q 0).val = (i 0).val := by
  unfold DotDims.lhsIdx
  rw [dif_neg (show ¬(0 : Fin S32x400.rank) ∈ dot_S32x400_S400x1024_S32x1024_1_0_0_1_n_n.lhsBatch by decide), dif_pos (show (0 : Fin S32x400.rank) ∈ dot_S32x400_S400x1024_S32x1024_1_0_0_1_n_n.lhsNonContracting by decide)]
  rfl
/-- The first layer's product [32,400] × [400,1024]: the left operand's column coordinate is the summation index. -/
theorem lhsA_1 (i : S32x1024.Idx) (q : dot_S32x400_S400x1024_S32x1024_1_0_0_1_n_n.contr.Idx) :
    (dot_S32x400_S400x1024_S32x1024_1_0_0_1_n_n.lhsIdx i q 1).val = (q ⟨0, by decide⟩).val :=
  dot_S32x400_S400x1024_S32x1024_1_0_0_1_n_n.lhsIdx_val_of_single rfl i q
/-- The first layer's product [32,400] × [400,1024]: the right operand's row coordinate is the summation index. -/
theorem rhsA_0 (i : S32x1024.Idx) (q : dot_S32x400_S400x1024_S32x1024_1_0_0_1_n_n.contr.Idx) :
    (dot_S32x400_S400x1024_S32x1024_1_0_0_1_n_n.rhsIdx i q 0).val = (q ⟨0, by decide⟩).val :=
  dot_S32x400_S400x1024_S32x1024_1_0_0_1_n_n.rhsIdx_val_of_single rfl i q
/-- The first layer's product [32,400] × [400,1024]: the right operand's column coordinate is the entry's. -/
theorem rhsA_1 (i : S32x1024.Idx) (q : dot_S32x400_S400x1024_S32x1024_1_0_0_1_n_n.contr.Idx) :
    (dot_S32x400_S400x1024_S32x1024_1_0_0_1_n_n.rhsIdx i q 1).val = (i 1).val := by
  unfold DotDims.rhsIdx
  rw [dif_neg (show ¬(1 : Fin S400x1024.rank) ∈ dot_S32x400_S400x1024_S32x1024_1_0_0_1_n_n.rhsBatch by decide), dif_pos (show (1 : Fin S400x1024.rank) ∈ dot_S32x400_S400x1024_S32x1024_1_0_0_1_n_n.rhsNonContracting by decide)]
  rfl
/-- The first layer's product [32,400] × [400,1024] into a zero accumulator, read at entry (i, u): the sum over k of row i of the left operand times column u of
    the right one. -/
theorem prodA_apply (h : FVec Ideal S32x400 .bf16) (W : FVec Ideal S400x1024 .bf16) (i : Fin 32) (u : Fin 1024) :
    matmul dot_S32x400_S400x1024_S32x1024_1_0_0_1_n_n none h W (constant (F := Ideal) S32x1024 .f32 0x00000000#32) (ix2 i u)
      = ∑ k : Fin 400, h (ix2 i k) * W (ix2 k u) := by
  simp only [matmul]
  rw [Ideal.matmul_constant_zero_apply, ← Equiv.sum_comp (contrEquiv1 dot_S32x400_S400x1024_S32x1024_1_0_0_1_n_n 400 rfl rfl).symm]
  refine Finset.sum_congr rfl fun k _ => ?_
  have hk := contrEquiv1_symm_val dot_S32x400_S400x1024_S32x1024_1_0_0_1_n_n 400 rfl rfl k
  have el : dot_S32x400_S400x1024_S32x1024_1_0_0_1_n_n.lhsIdx (ix2 i u) ((contrEquiv1 dot_S32x400_S400x1024_S32x1024_1_0_0_1_n_n 400 rfl rfl).symm k) = ix2 i k := funext fun a => Fin.ext (by
    match a with
    | ⟨0, _⟩ => exact lhsA_0 _ _
    | ⟨1, _⟩ => exact (lhsA_1 _ _).trans hk)
  have er : dot_S32x400_S400x1024_S32x1024_1_0_0_1_n_n.rhsIdx (ix2 i u) ((contrEquiv1 dot_S32x400_S400x1024_S32x1024_1_0_0_1_n_n 400 rfl rfl).symm k) = ix2 k u := funext fun a => Fin.ext (by
    match a with
    | ⟨0, _⟩ => exact (rhsA_0 _ _).trans hk
    | ⟨1, _⟩ => exact rhsA_1 _ _)
  rw [el, er]

/-- The second layer's product [32,1024] × [1024,1024]: the left operand's row coordinate is the entry's. -/
theorem lhsB_0 (i : S32x1024.Idx) (q : dot_S32x1024_S1024x1024_S32x1024_1_0_0_1_n_n.contr.Idx) :
    (dot_S32x1024_S1024x1024_S32x1024_1_0_0_1_n_n.lhsIdx i q 0).val = (i 0).val := by
  unfold DotDims.lhsIdx
  rw [dif_neg (show ¬(0 : Fin S32x1024.rank) ∈ dot_S32x1024_S1024x1024_S32x1024_1_0_0_1_n_n.lhsBatch by decide), dif_pos (show (0 : Fin S32x1024.rank) ∈ dot_S32x1024_S1024x1024_S32x1024_1_0_0_1_n_n.lhsNonContracting by decide)]
  rfl
/-- The second layer's product [32,1024] × [1024,1024]: the left operand's column coordinate is the summation index. -/
theorem lhsB_1 (i : S32x1024.Idx) (q : dot_S32x1024_S1024x1024_S32x1024_1_0_0_1_n_n.contr.Idx) :
    (dot_S32x1024_S1024x1024_S32x1024_1_0_0_1_n_n.lhsIdx i q 1).val = (q ⟨0, by decide⟩).val :=
  dot_S32x1024_S1024x1024_S32x1024_1_0_0_1_n_n.lhsIdx_val_of_single rfl i q
/-- The second layer's product [32,1024] × [1024,1024]: the right operand's row coordinate is the summation index. -/
theorem rhsB_0 (i : S32x1024.Idx) (q : dot_S32x1024_S1024x1024_S32x1024_1_0_0_1_n_n.contr.Idx) :
    (dot_S32x1024_S1024x1024_S32x1024_1_0_0_1_n_n.rhsIdx i q 0).val = (q ⟨0, by decide⟩).val :=
  dot_S32x1024_S1024x1024_S32x1024_1_0_0_1_n_n.rhsIdx_val_of_single rfl i q
/-- The second layer's product [32,1024] × [1024,1024]: the right operand's column coordinate is the entry's. -/
theorem rhsB_1 (i : S32x1024.Idx) (q : dot_S32x1024_S1024x1024_S32x1024_1_0_0_1_n_n.contr.Idx) :
    (dot_S32x1024_S1024x1024_S32x1024_1_0_0_1_n_n.rhsIdx i q 1).val = (i 1).val := by
  unfold DotDims.rhsIdx
  rw [dif_neg (show ¬(1 : Fin S1024x1024.rank) ∈ dot_S32x1024_S1024x1024_S32x1024_1_0_0_1_n_n.rhsBatch by decide), dif_pos (show (1 : Fin S1024x1024.rank) ∈ dot_S32x1024_S1024x1024_S32x1024_1_0_0_1_n_n.rhsNonContracting by decide)]
  rfl
/-- The second layer's product [32,1024] × [1024,1024] into a zero accumulator, read at entry (i, u): the sum over k of row i of the left operand times column u of
    the right one. -/
theorem prodB_apply (h : FVec Ideal S32x1024 .bf16) (W : FVec Ideal S1024x1024 .bf16) (i : Fin 32) (u : Fin 1024) :
    matmul dot_S32x1024_S1024x1024_S32x1024_1_0_0_1_n_n none h W (constant (F := Ideal) S32x1024 .f32 0x00000000#32) (ix2 i u)
      = ∑ k : Fin 1024, h (ix2 i k) * W (ix2 k u) := by
  simp only [matmul]
  rw [Ideal.matmul_constant_zero_apply, ← Equiv.sum_comp (contrEquiv1 dot_S32x1024_S1024x1024_S32x1024_1_0_0_1_n_n 1024 rfl rfl).symm]
  refine Finset.sum_congr rfl fun k _ => ?_
  have hk := contrEquiv1_symm_val dot_S32x1024_S1024x1024_S32x1024_1_0_0_1_n_n 1024 rfl rfl k
  have el : dot_S32x1024_S1024x1024_S32x1024_1_0_0_1_n_n.lhsIdx (ix2 i u) ((contrEquiv1 dot_S32x1024_S1024x1024_S32x1024_1_0_0_1_n_n 1024 rfl rfl).symm k) = ix2 i k := funext fun a => Fin.ext (by
    match a with
    | ⟨0, _⟩ => exact lhsB_0 _ _
    | ⟨1, _⟩ => exact (lhsB_1 _ _).trans hk)
  have er : dot_S32x1024_S1024x1024_S32x1024_1_0_0_1_n_n.rhsIdx (ix2 i u) ((contrEquiv1 dot_S32x1024_S1024x1024_S32x1024_1_0_0_1_n_n 1024 rfl rfl).symm k) = ix2 k u := funext fun a => Fin.ext (by
    match a with
    | ⟨0, _⟩ => exact (rhsB_0 _ _).trans hk
    | ⟨1, _⟩ => exact rhsB_1 _ _)
  rw [el, er]

/-- The output layer's product [32,1024] × [1024,1]: the left operand's row coordinate is the entry's. -/
theorem lhsC_0 (i : S32x1.Idx) (q : dot_S32x1024_S1024x1_S32x1_1_0_0_1_n_n.contr.Idx) :
    (dot_S32x1024_S1024x1_S32x1_1_0_0_1_n_n.lhsIdx i q 0).val = (i 0).val := by
  unfold DotDims.lhsIdx
  rw [dif_neg (show ¬(0 : Fin S32x1024.rank) ∈ dot_S32x1024_S1024x1_S32x1_1_0_0_1_n_n.lhsBatch by decide), dif_pos (show (0 : Fin S32x1024.rank) ∈ dot_S32x1024_S1024x1_S32x1_1_0_0_1_n_n.lhsNonContracting by decide)]
  rfl
/-- The output layer's product [32,1024] × [1024,1]: the left operand's column coordinate is the summation index. -/
theorem lhsC_1 (i : S32x1.Idx) (q : dot_S32x1024_S1024x1_S32x1_1_0_0_1_n_n.contr.Idx) :
    (dot_S32x1024_S1024x1_S32x1_1_0_0_1_n_n.lhsIdx i q 1).val = (q ⟨0, by decide⟩).val :=
  dot_S32x1024_S1024x1_S32x1_1_0_0_1_n_n.lhsIdx_val_of_single rfl i q
/-- The output layer's product [32,1024] × [1024,1]: the right operand's row coordinate is the summation index. -/
theorem rhsC_0 (i : S32x1.Idx) (q : dot_S32x1024_S1024x1_S32x1_1_0_0_1_n_n.contr.Idx) :
    (dot_S32x1024_S1024x1_S32x1_1_0_0_1_n_n.rhsIdx i q 0).val = (q ⟨0, by decide⟩).val :=
  dot_S32x1024_S1024x1_S32x1_1_0_0_1_n_n.rhsIdx_val_of_single rfl i q
/-- The output layer's product [32,1024] × [1024,1]: the right operand's column coordinate is the entry's. -/
theorem rhsC_1 (i : S32x1.Idx) (q : dot_S32x1024_S1024x1_S32x1_1_0_0_1_n_n.contr.Idx) :
    (dot_S32x1024_S1024x1_S32x1_1_0_0_1_n_n.rhsIdx i q 1).val = (i 1).val := by
  unfold DotDims.rhsIdx
  rw [dif_neg (show ¬(1 : Fin S1024x1.rank) ∈ dot_S32x1024_S1024x1_S32x1_1_0_0_1_n_n.rhsBatch by decide), dif_pos (show (1 : Fin S1024x1.rank) ∈ dot_S32x1024_S1024x1_S32x1_1_0_0_1_n_n.rhsNonContracting by decide)]
  rfl
/-- The output layer's product [32,1024] × [1024,1] into a zero accumulator, read at entry (i, u): the sum over k of row i of the left operand times column u of
    the right one. -/
theorem prodC_apply (h : FVec Ideal S32x1024 .bf16) (W : FVec Ideal S1024x1 .bf16) (i : Fin 32) (u : Fin 1) :
    matmul dot_S32x1024_S1024x1_S32x1_1_0_0_1_n_n none h W (constant (F := Ideal) S32x1 .f32 0x00000000#32) (ix2 i u)
      = ∑ k : Fin 1024, h (ix2 i k) * W (ix2 k u) := by
  simp only [matmul]
  rw [Ideal.matmul_constant_zero_apply, ← Equiv.sum_comp (contrEquiv1 dot_S32x1024_S1024x1_S32x1_1_0_0_1_n_n 1024 rfl rfl).symm]
  refine Finset.sum_congr rfl fun k _ => ?_
  have hk := contrEquiv1_symm_val dot_S32x1024_S1024x1_S32x1_1_0_0_1_n_n 1024 rfl rfl k
  have el : dot_S32x1024_S1024x1_S32x1_1_0_0_1_n_n.lhsIdx (ix2 i u) ((contrEquiv1 dot_S32x1024_S1024x1_S32x1_1_0_0_1_n_n 1024 rfl rfl).symm k) = ix2 i k := funext fun a => Fin.ext (by
    match a with
    | ⟨0, _⟩ => exact lhsC_0 _ _
    | ⟨1, _⟩ => exact (lhsC_1 _ _).trans hk)
  have er : dot_S32x1024_S1024x1_S32x1_1_0_0_1_n_n.rhsIdx (ix2 i u) ((contrEquiv1 dot_S32x1024_S1024x1_S32x1_1_0_0_1_n_n 1024 rfl rfl).symm k) = ix2 k u := funext fun a => Fin.ext (by
    match a with
    | ⟨0, _⟩ => exact (rhsC_0 _ _).trans hk
    | ⟨1, _⟩ => exact rhsC_1 _ _)
  rw [el, er]

/-! ## The layers read at an entry -/

/-- The first hidden layer read at entry (i, u): the product into a zero accumulator, plus the bias row broadcast over the
    32 rows, then the maximum with the zero word broadcast, is the activation of the layer's affine form on row i. -/
theorem hiddenA_apply (h : FVec Ideal S32x400 .bf16) (W : FVec Ideal S400x1024 .bf16) (b : FVec Ideal S1x1024 .f32)
    (i : Fin 32) (u : Fin 1024) :
    maximumf
        (addf (matmul dot_S32x400_S400x1024_S32x1024_1_0_0_1_n_n none h (shapeCast S400x1024 W shapeCasts_S400x1024_S400x1024) (constant (F := Ideal) S32x1024 .f32 0x00000000#32))
          (broadcastTo S32x1024 (shapeCast S1x1024 b shapeCasts_S1x1024_S1x1024) broadcasts_S1x1024_S32x1024))
        (broadcast S32x1024 (FloatOps.ofBits (F := Ideal) .f32 0x00000000#32)) (ix2 i u)
      = relu (dense (fun k : Fin 400 => h (ix2 i k)) (fun k v => W (ix2 k v)) (fun v => b (ix2 0 v)) u) := by
  rw [maximumf_apply, addf_apply, broadcast_apply, shapeCast_self, shapeCast_self, prodA_apply, broadcastTo_1b_ab_apply,
    Ideal.ofBits_def, Ideal.ofBits_zero_f32]
  rfl

/-- The second hidden layer read at entry (i, u): the product into a zero accumulator, plus the bias row broadcast over the
    32 rows, then the maximum with the zero word broadcast, is the activation of the layer's affine form on row i. -/
theorem hiddenB_apply (h : FVec Ideal S32x1024 .bf16) (W : FVec Ideal S1024x1024 .bf16) (b : FVec Ideal S1x1024 .f32)
    (i : Fin 32) (u : Fin 1024) :
    maximumf
        (addf (matmul dot_S32x1024_S1024x1024_S32x1024_1_0_0_1_n_n none h (shapeCast S1024x1024 W shapeCasts_S1024x1024_S1024x1024) (constant (F := Ideal) S32x1024 .f32 0x00000000#32))
          (broadcastTo S32x1024 (shapeCast S1x1024 b shapeCasts_S1x1024_S1x1024) broadcasts_S1x1024_S32x1024))
        (broadcast S32x1024 (FloatOps.ofBits (F := Ideal) .f32 0x00000000#32)) (ix2 i u)
      = relu (dense (fun k : Fin 1024 => h (ix2 i k)) (fun k v => W (ix2 k v)) (fun v => b (ix2 0 v)) u) := by
  rw [maximumf_apply, addf_apply, broadcast_apply, shapeCast_self, shapeCast_self, prodB_apply, broadcastTo_1b_ab_apply,
    Ideal.ofBits_def, Ideal.ofBits_zero_f32]
  rfl

/-- The output layer read at row i: the product into a zero accumulator plus the one bias broadcast over the 32 rows is
    the sum over the 1024 hidden units of the unit times its weight, plus the bias. -/
theorem out_apply (g : FVec Ideal S32x1024 .bf16) (w : FVec Ideal S1024x1 .bf16) (b : FVec Ideal S1x1 .f32) (i : Fin 32) :
    addf (matmul dot_S32x1024_S1024x1_S32x1_1_0_0_1_n_n none g (shapeCast S1024x1 w shapeCasts_S1024x1_S1024x1) (constant (F := Ideal) S32x1 .f32 0x00000000#32))
        (broadcastTo S32x1 (shapeCast S1x1 b shapeCasts_S1x1_S1x1) broadcasts_S1x1_S32x1) (ix2 i 0)
      = (∑ u : Fin 1024, g (ix2 i u) * w (ix2 u 0)) + b (ix2 0 0) := by
  rw [addf_apply, shapeCast_self, shapeCast_self, prodC_apply, broadcastTo_1b_ab_apply]

/-- The sum over axis 0 of a [32,1] column, re-laid [1] → [1,1] and read at its one entry, is the sum of the column's 32
    entries. -/
theorem colsum_apply (c : FVec Ideal S32x1 .f32) (hφ : FKind.Formats .f32)
    (hacc : (0x00000000#32 : BitVec 32) = FKind.add.neutral .f32 hφ) :
    shapeCast S1x1 (multiReduction (F := Ideal) .add [0] S1 c 0x00000000#32 reduces_S32x1_S1 hφ hacc) shapeCasts_S1_S1x1 (ix2 0 0)
      = ∑ i : Fin 32, c (ix2 i 0) := by
  rw [shapeCast_a_1a_apply]
  refine (Ideal.multiReduction_add_single c 0x00000000#32 reduces_S32x1_S1 hφ hacc (ix1 0)).trans ?_
  refine Finset.sum_congr rfl fun i _ => congrArg c (funext fun a => Fin.ext ?_)
  match a with
  | ⟨0, _⟩ => rfl
  | ⟨1, _⟩ => rfl

/-! ## The payload -/

/-- The trajectory payload's one entry is the sum over agents of the perceptron of the agent's features. -/
theorem traj_sum (v0 : Vec Ideal S1x32x400 .f32) (v5 : Vec Ideal S400x1024 .bf16) (v8 : Vec Ideal S1x1024 .f32)
    (v15 : Vec Ideal S1024x1024 .bf16) (v18 : Vec Ideal S1x1024 .f32) (v25 : Vec Ideal S1024x1 .bf16) (v28 : Vec Ideal S1x1 .f32) :
    k0_pay4 (F := Ideal) v0 v5 v8 v15 v18 v25 v28 (ix2 0 0)
      = ∑ i : Fin 32, mlp (fun k : Fin 400 => v0 (ix3 0 i k)) (fun k u => v5 (ix2 k u)) (fun u => v8 (ix2 0 u))
          (fun k u => v15 (ix2 k u)) (fun u => v18 (ix2 0 u)) (fun k => v25 (ix2 k 0)) (v28 (ix2 0 0)) := by
  unfold k0_pay4 k0_pay2
  refine (colsum_apply _ _ _).trans ?_
  refine Finset.sum_congr rfl fun i _ => ?_
  rw [out_apply]
  unfold mlp head
  refine congrArg (· + v28 (ix2 0 0)) (Finset.sum_congr rfl fun u _ => ?_)
  rw [truncf_apply, hiddenB_apply]
  refine congrArg (fun g : Fin 1024 → EReal => relu (dense g (fun k v => v15 (ix2 k v)) (fun v => v18 (ix2 0 v)) u) * v25 (ix2 u 0)) (funext fun k => ?_)
  rw [truncf_apply, hiddenA_apply]
  refine congrArg (fun x : Fin 400 → EReal => relu (dense x (fun k v => v5 (ix2 k v)) (fun v => v8 (ix2 0 v)) k)) (funext fun j => ?_)
  show truncf (F := Ideal) .bf16 (shapeCast S32x400 v0 shapeCasts_S1x32x400_S32x400) bitsLt_bf16_f32 (ix2 i j) = _
  rw [truncf_apply, shapeCast_1ab_ab_apply]

end Cert.KernelIdeal.TrajBlock

end
-- ==== Proof.PairBlock.lean ====
/-
  The kernel body's interaction part at one grid point, read at the entry of the ordered pair (i, j): the edge weight
  times the scalar head over the pair's hidden layer, whose first layer is a term of agent i plus a term of agent j plus
  the bias.
-/
import proofs.«101939_j86011015070455_1_alg».proof.Proof.Gen.KernelIdeal.Skeleton
import proofs.«101939_j86011015070455_1_alg».proof.Proof.Energy
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PairBlock

open Idealize.ShloMosaic Idealize.ShloMosaic.ValueIdx Cert.KernelIdeal Cert.KernelIdeal.Gen Cert.Energy
open scoped BigOperators

/-! ## The two matrix products read at an entry

A product into the zero accumulator is the plain sum over the contracted axis of the products of the entries. -/

theorem lhs_feat_0 (i : S32x1024.Idx) (q : dot_S32x400_S400x1024_S32x1024_1_0_0_1_n_n.contr.Idx) :
    (dot_S32x400_S400x1024_S32x1024_1_0_0_1_n_n.lhsIdx i q 0).val = (i 0).val := by
  unfold DotDims.lhsIdx
  rw [dif_neg (show ¬(0 : Fin S32x400.rank) ∈ dot_S32x400_S400x1024_S32x1024_1_0_0_1_n_n.lhsBatch by decide), dif_pos (show (0 : Fin S32x400.rank) ∈ dot_S32x400_S400x1024_S32x1024_1_0_0_1_n_n.lhsNonContracting by decide)]
  rfl
theorem lhs_feat_1 (i : S32x1024.Idx) (q : dot_S32x400_S400x1024_S32x1024_1_0_0_1_n_n.contr.Idx) :
    (dot_S32x400_S400x1024_S32x1024_1_0_0_1_n_n.lhsIdx i q 1).val = (q ⟨0, by decide⟩).val :=
  dot_S32x400_S400x1024_S32x1024_1_0_0_1_n_n.lhsIdx_val_of_single rfl i q
theorem rhs_feat_0 (i : S32x1024.Idx) (q : dot_S32x400_S400x1024_S32x1024_1_0_0_1_n_n.contr.Idx) :
    (dot_S32x400_S400x1024_S32x1024_1_0_0_1_n_n.rhsIdx i q 0).val = (q ⟨0, by decide⟩).val :=
  dot_S32x400_S400x1024_S32x1024_1_0_0_1_n_n.rhsIdx_val_of_single rfl i q
theorem rhs_feat_1 (i : S32x1024.Idx) (q : dot_S32x400_S400x1024_S32x1024_1_0_0_1_n_n.contr.Idx) :
    (dot_S32x400_S400x1024_S32x1024_1_0_0_1_n_n.rhsIdx i q 1).val = (i 1).val := by
  unfold DotDims.rhsIdx
  rw [dif_neg (show ¬(1 : Fin S400x1024.rank) ∈ dot_S32x400_S400x1024_S32x1024_1_0_0_1_n_n.rhsBatch by decide), dif_pos (show (1 : Fin S400x1024.rank) ∈ dot_S32x400_S400x1024_S32x1024_1_0_0_1_n_n.rhsNonContracting by decide)]
  rfl

/-- An agent's 400 features against a 400 × 1024 weight matrix: entry (r, u) is `Σ_k x r k · w k u`. -/
theorem feat_apply (x : FVec Ideal S32x400 .bf16) (w : FVec Ideal S400x1024 .bf16) (r : Fin 32) (u : Fin 1024) :
    matmul dot_S32x400_S400x1024_S32x1024_1_0_0_1_n_n none x w (constant (F := Ideal) S32x1024 .f32 0x00000000#32) (ix2 r u)
      = ∑ k : Fin 400, x (ix2 r k) * w (ix2 k u) := by
  simp only [matmul]
  rw [Ideal.matmul_constant_zero_apply, ← Equiv.sum_comp (contrEquiv1 dot_S32x400_S400x1024_S32x1024_1_0_0_1_n_n 400 rfl rfl).symm]
  refine Finset.sum_congr rfl fun k _ => ?_
  have hk := contrEquiv1_symm_val dot_S32x400_S400x1024_S32x1024_1_0_0_1_n_n 400 rfl rfl k
  have el : dot_S32x400_S400x1024_S32x1024_1_0_0_1_n_n.lhsIdx (ix2 r u) ((contrEquiv1 dot_S32x400_S400x1024_S32x1024_1_0_0_1_n_n 400 rfl rfl).symm k) = ix2 r k := funext fun a => Fin.ext (by
    match a with
    | ⟨0, _⟩ => exact lhs_feat_0 _ _
    | ⟨1, _⟩ => exact (lhs_feat_1 _ _).trans hk)
  have er : dot_S32x400_S400x1024_S32x1024_1_0_0_1_n_n.rhsIdx (ix2 r u) ((contrEquiv1 dot_S32x400_S400x1024_S32x1024_1_0_0_1_n_n 400 rfl rfl).symm k) = ix2 k u := funext fun a => Fin.ext (by
    match a with
    | ⟨0, _⟩ => exact (rhs_feat_0 _ _).trans hk
    | ⟨1, _⟩ => exact rhs_feat_1 _ _)
  rw [el, er]

theorem lhs_hid_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_hid_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_hid_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_hid_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The 1024 pairs' hidden rows against the 1024 × 1024 weight matrix: entry (r, u) is `Σ_k x r k · w k u`. -/
theorem hid_apply (x : FVec Ideal S1024x1024 .bf16) (w : FVec Ideal S1024x1024 .bf16) (r : Fin 1024) (u : Fin 1024) :
    matmul dot_S1024x1024_S1024x1024_S1024x1024_1_0_0_1_n_n none x w (constant (F := Ideal) S1024x1024 .f32 0x00000000#32) (ix2 r u)
      = ∑ k : Fin 1024, x (ix2 r k) * w (ix2 k u) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r u) ((contrEquiv1 dot_S1024x1024_S1024x1024_S1024x1024_1_0_0_1_n_n 1024 rfl rfl).symm k) = ix2 r k := funext fun a => Fin.ext (by
    match a with
    | ⟨0, _⟩ => exact lhs_hid_0 _ _
    | ⟨1, _⟩ => exact (lhs_hid_1 _ _).trans hk)
  have er : dot_S1024x1024_S1024x1024_S1024x1024_1_0_0_1_n_n.rhsIdx (ix2 r u) ((contrEquiv1 dot_S1024x1024_S1024x1024_S1024x1024_1_0_0_1_n_n 1024 rfl rfl).symm k) = ix2 k u := funext fun a => Fin.ext (by
    match a with
    | ⟨0, _⟩ => exact (rhs_hid_0 _ _).trans hk
    | ⟨1, _⟩ => exact rhs_hid_1 _ _)
  rw [el, er]

/-! ## The re-layings read at an entry

Each one reads a single entry of its operand; the coordinates are literal, so the row-major positions are compared by
linear arithmetic. -/

section Layout
variable {α : Type}

/-- [32,1024] viewed [32,1,1024]: entry (i, z, v) is the operand's (i, v). -/
theorem cast_i1v (x : S32x1024.Idx → α) (i : Fin 32) (z : Fin 1) (v : Fin 1024) :
    shapeCast S32x1x1024 x shapeCasts_S32x1024_S32x1x1024 (ix3 i z v) = x (ix2 i v) :=
  shapeCast_apply x shapeCasts_S32x1024_S32x1x1024 (ix3 i z v) (ix2 i v) (by
    rw [Shape.rowMajor_val_two, Shape.rowMajor_val_three]
    show i.val * 1024 + v.val = (i.val * 1 + z.val) * 1024 + v.val
    have := z.isLt; omega)

/-- [32,1024] viewed [1,32,1024]: entry (z, j, v) is the operand's (j, v). -/
theorem cast_1jv (x : S32x1024.Idx → α) (z : Fin 1) (j : Fin 32) (v : Fin 1024) :
    shapeCast S1x32x1024 x shapeCasts_S32x1024_S1x32x1024 (ix3 z j v) = x (ix2 j v) :=
  shapeCast_apply x shapeCasts_S32x1024_S1x32x1024 (ix3 z j v) (ix2 j v) (by
    rw [Shape.rowMajor_val_two, Shape.rowMajor_val_three]
    show j.val * 1024 + v.val = (z.val * 32 + j.val) * 1024 + v.val
    have := z.isLt; omega)

/-- [1,1024] viewed [1,1,1024]: entry (z, z', v) is the operand's (0, v). -/
theorem cast_11v (x : S1x1024.Idx → α) (z z' : Fin 1) (v : Fin 1024) :
    shapeCast S1x1x1024 x shapeCasts_S1x1024_S1x1x1024 (ix3 z z' v) = x (ix2 (0 : Fin 1) v) :=
  shapeCast_apply x shapeCasts_S1x1024_S1x1x1024 (ix3 z z' v) (ix2 (0 : Fin 1) v) (by
    rw [Shape.rowMajor_val_two, Shape.rowMajor_val_three]
    show 0 * 1024 + v.val = (z.val * 1 + z'.val) * 1024 + v.val
    have := z.isLt; have := z'.isLt; omega)

/-- [32,32,1024] viewed [1024,1024]: row 32 i + j is the pair (i, j). -/
theorem cast_rows (x : S32x32x1024.Idx → α) (i j : Fin 32) (v : Fin 1024) (h : 32 * i.val + j.val < 1024) :
    shapeCast S1024x1024 x shapeCasts_S32x32x1024_S1024x1024 (ix2 (⟨32 * i.val + j.val, h⟩ : Fin 1024) v) = x (ix3 i j v) :=
  shapeCast_apply x shapeCasts_S32x32x1024_S1024x1024 (ix2 (⟨32 * i.val + j.val, h⟩ : Fin 1024) v) (ix3 i j v) (by
    rw [Shape.rowMajor_val_two, Shape.rowMajor_val_three]
    show (i.val * 32 + j.val) * 1024 + v.val = (32 * i.val + j.val) * 1024 + v.val
    omega)

/-- [1024,1024] viewed [32,32,1024]: the pair (i, j) is row 32 i + j. -/
theorem cast_pairs (x : S1024x1024.Idx → α) (i j : Fin 32) (v : Fin 1024) (h : 32 * i.val + j.val < 1024) :
    shapeCast S32x32x1024 x shapeCasts_S1024x1024_S32x32x1024 (ix3 i j v) = x (ix2 (⟨32 * i.val + j.val, h⟩ : Fin 1024) v) :=
  shapeCast_apply x shapeCasts_S1024x1024_S32x32x1024 (ix3 i j v) (ix2 (⟨32 * i.val + j.val, h⟩ : Fin 1024) v) (by
    rw [Shape.rowMajor_val_two, Shape.rowMajor_val_three]
    show (32 * i.val + j.val) * 1024 + v.val = (i.val * 32 + j.val) * 1024 + v.val
    omega)

/-- [32,1,1024] repeated along axis 1: entry (i, j, v) is the operand's (i, 0, v). -/
theorem bcast_i (x : S32x1x1024.Idx → α) (i j : Fin 32) (v : Fin 1024) :
    broadcastTo S32x32x1024 x broadcasts_S32x1x1024_S32x32x1024 (ix3 i j v) = x (ix3 i (0 : Fin 1) v) :=
  broadcastTo_apply x broadcasts_S32x1x1024_S32x32x1024 (ix3 i j v) (ix3 i (0 : Fin 1) v) fun a =>
    match a with | ⟨0, _⟩ => rfl | ⟨1, _⟩ => rfl | ⟨2, _⟩ => rfl

/-- [1,32,1024] repeated along axis 0: entry (i, j, v) is the operand's (0, j, v). -/
theorem bcast_j (x : S1x32x1024.Idx → α) (i j : Fin 32) (v : Fin 1024) :
    broadcastTo S32x32x1024 x broadcasts_S1x32x1024_S32x32x1024 (ix3 i j v) = x (ix3 (0 : Fin 1) j v) :=
  broadcastTo_apply x broadcasts_S1x32x1024_S32x32x1024 (ix3 i j v) (ix3 (0 : Fin 1) j v) fun a =>
    match a with | ⟨0, _⟩ => rfl | ⟨1, _⟩ => rfl | ⟨2, _⟩ => rfl

/-- [1,1,1024] repeated along axes 0 and 1: entry (i, j, v) is the operand's (0, 0, v). -/
theorem bcast_v (x : S1x1x1024.Idx → α) (i j : Fin 32) (v : Fin 1024) :
    broadcastTo S32x32x1024 x broadcasts_S1x1x1024_S32x32x1024 (ix3 i j v) = x (ix3 (0 : Fin 1) (0 : Fin 1) v) :=
  broadcastTo_apply x broadcasts_S1x1x1024_S32x32x1024 (ix3 i j v) (ix3 (0 : Fin 1) (0 : Fin 1) v) fun a =>
    match a with | ⟨0, _⟩ => rfl | ⟨1, _⟩ => rfl | ⟨2, _⟩ => rfl

/-- [1,1] repeated to [32,32]: every entry is the operand's one entry. -/
theorem bcast_one (x : S1x1.Idx → α) (i j : Fin 32) :
    broadcastTo S32x32 x broadcasts_S1x1_S32x32 (ix2 i j) = x (ix2 (0 : Fin 1) (0 : Fin 1)) :=
  broadcastTo_apply x broadcasts_S1x1_S32x32 (ix2 i j) (ix2 (0 : Fin 1) (0 : Fin 1)) fun a =>
    match a with | ⟨0, _⟩ => rfl | ⟨1, _⟩ => rfl

end Layout

/-- The sum over the last axis of a [32,32,1024] array, at (i, j), is `Σ_u src i j u`. -/
theorem sum_last (src : FVec Ideal S32x32x1024 .f32) (hacc : (0x00000000#32 : BitVec 32) = 0x00000000#32) (i j : Fin 32) :
    multiReduction (F := Ideal) .add [2] S32x32 src 0x00000000#32 reduces_S32x32x1024_S32x32 (.inl rfl) hacc (ix2 i j)
      = ∑ u : Fin 1024, src (ix3 i j u) := by
  refine (Ideal.multiReduction_add_single src 0x00000000#32 reduces_S32x32x1024_S32x32 (.inl rfl) hacc (ix2 i j)).trans ?_
  refine Finset.sum_congr rfl fun u _ => congrArg src (funext fun a => ?_)
  match a with | ⟨0, _⟩ => rfl | ⟨1, _⟩ => rfl | ⟨2, _⟩ => rfl

/-! ## The stages of the interaction part, each over variables for what it reads -/

/-- The activation against the broadcast zero word is `relu`. -/
theorem max_zero_word (z : EReal) : max z (Ideal.ofBits .f32 0x00000000#32) = relu z := by
  rw [Ideal.ofBits_zero_f32]; rfl

/-- The pair's first hidden layer at (i, j, v): the term `a` of agent i, the term `bb` of agent j, the bias, the activation. -/
theorem hidden1_entry (a bb : FVec Ideal S32x1024 .f32) (c : FVec Ideal S1x1024 .f32) (i j : Fin 32) (v : Fin 1024) :
    maximumf
        (addf
          (addf (broadcastTo S32x32x1024 (shapeCast S32x1x1024 a shapeCasts_S32x1024_S32x1x1024) broadcasts_S32x1x1024_S32x32x1024)
                (broadcastTo S32x32x1024 (shapeCast S1x32x1024 bb shapeCasts_S32x1024_S1x32x1024) broadcasts_S1x32x1024_S32x32x1024))
          (broadcastTo S32x32x1024
            (shapeCast S1x1x1024 (shapeCast S1x1024 c shapeCasts_S1x1024_S1x1024) shapeCasts_S1x1024_S1x1x1024)
            broadcasts_S1x1x1024_S32x32x1024))
        (broadcast S32x32x1024 (Scalar.ofBits (F := Ideal) .f32 0x00000000#32)) (ix3 i j v)
      = relu ((a (ix2 i v) + bb (ix2 j v)) + c (ix2 (0 : Fin 1) v)) := by
  rw [maximumf_apply, addf_apply, addf_apply, broadcast_apply, bcast_i, bcast_j, bcast_v, cast_i1v, cast_1jv, cast_11v,
    shapeCast_self]
  exact max_zero_word _

/-- The second hidden layer at the row of the pair (i, j) and column u: the first hidden layer's row of that pair against
    column u of the weights, the bias, the activation. -/
theorem hidden2_entry (g : FVec Ideal S32x32x1024 .f32) (w : FVec Ideal S1024x1024 .bf16) (b : FVec Ideal S1x1024 .f32)
    (i j : Fin 32) (u : Fin 1024) (h : 32 * i.val + j.val < 1024) :
    maximumf
        (addf
          (matmul dot_S1024x1024_S1024x1024_S1024x1024_1_0_0_1_n_n none
            (truncf .bf16 (shapeCast S1024x1024 g shapeCasts_S32x32x1024_S1024x1024) bitsLt_bf16_f32)
            (shapeCast S1024x1024 w shapeCasts_S1024x1024_S1024x1024)
            (constant (F := Ideal) S1024x1024 .f32 0x00000000#32))
          (broadcastTo S1024x1024 (shapeCast S1x1024 b shapeCasts_S1x1024_S1x1024) broadcasts_S1x1024_S1024x1024))
        (broadcast S1024x1024 (Scalar.ofBits (F := Ideal) .f32 0x00000000#32)) (ix2 (⟨32 * i.val + j.val, h⟩ : Fin 1024) u)
      = relu ((∑ k : Fin 1024, g (ix3 i j k) * w (ix2 k u)) + b (ix2 (0 : Fin 1) u)) := by
  rw [maximumf_apply, addf_apply, broadcast_apply, hid_apply, broadcastTo_1b_ab_apply, shapeCast_self, shapeCast_self]
  refine (max_zero_word _).trans (congrArg relu (congrArg (· + b (ix2 (0 : Fin 1) u)) ?_))
  refine Finset.sum_congr rfl fun k _ => congrArg (· * w (ix2 k u)) ?_
  rw [truncf_apply]
  exact cast_rows g i j k h

/-- The scalar head at (i, j), times the edge weight: the second hidden layer's row of the pair against the head weights,
    plus the head bias. -/
theorem head_entry (e : FVec Ideal S32x32 .f32) (h2 : FVec Ideal S1024x1024 .f32) (w3 : FVec Ideal S1x1024 .f32)
    (b3 : FVec Ideal S1x1 .f32) (i j : Fin 32) (h : 32 * i.val + j.val < 1024) :
    mulf e
        (addf
          (multiReduction (F := Ideal) .add [2] S32x32
            (mulf (shapeCast S32x32x1024 h2 shapeCasts_S1024x1024_S32x32x1024)
              (broadcastTo S32x32x1024
                (shapeCast S1x1x1024 (shapeCast S1x1024 w3 shapeCasts_S1x1024_S1x1024) shapeCasts_S1x1024_S1x1x1024)
                broadcasts_S1x1x1024_S32x32x1024))
            0x00000000#32 reduces_S32x32x1024_S32x32 (.inl rfl) rfl)
          (broadcastTo S32x32 (shapeCast S1x1 b3 shapeCasts_S1x1_S1x1) broadcasts_S1x1_S32x32)) (ix2 i j)
      = e (ix2 i j) * ((∑ u : Fin 1024, h2 (ix2 (⟨32 * i.val + j.val, h⟩ : Fin 1024) u) * w3 (ix2 (0 : Fin 1) u))
          + b3 (ix2 (0 : Fin 1) (0 : Fin 1))) := by
  rw [mulf_apply, addf_apply, bcast_one, shapeCast_self b3]
  refine congrArg (e (ix2 i j) * ·) (congrArg (· + b3 (ix2 (0 : Fin 1) (0 : Fin 1))) ?_)
  refine (sum_last _ rfl i j).trans (Finset.sum_congr rfl fun u _ => ?_)
  rw [mulf_apply, bcast_v, cast_11v, shapeCast_self w3, cast_pairs h2 i j u h]

/-- The interaction payload at (i, j): edge weight times the head over the pair's hidden layer. -/
theorem pair_entry (v2 : FVec Ideal S32x400 .bf16) (v4 : FVec Ideal S32x32 .f32) (v34 v37 : Vec Ideal S400x1024 .bf16)
    (v45 : Vec Ideal S1x1024 .f32) (v54 : Vec Ideal S1024x1024 .bf16) (v57 v64 : Vec Ideal S1x1024 .f32) (v70 : Vec Ideal S1x1 .f32)
    (i j : Fin 32) :
    k0_pay5 (F := Ideal) v2 v4 v34 v37 v45 v54 v57 v64 v70 (ix2 i j)
      = v4 (ix2 i j) * head (pairHidden (fun k : Fin 400 => v2 (ix2 i k)) (fun k : Fin 400 => v2 (ix2 j k))
            (fun k u => v34 (ix2 k u)) (fun k u => v37 (ix2 k u)) (fun u => v45 (ix2 0 u)))
          (fun k u => v54 (ix2 k u)) (fun u => v57 (ix2 0 u)) (fun u => v64 (ix2 0 u)) (v70 (ix2 0 0)) := by
  have h : 32 * i.val + j.val < 1024 := by have := i.isLt; have := j.isLt; omega
  unfold k0_pay5
  refine (head_entry v4 _ v64 v70 i j h).trans ?_
  unfold head dense
  refine congrArg (v4 (ix2 i j) * ·) (congrArg (· + v70 (ix2 (0 : Fin 1) (0 : Fin 1))) ?_)
  refine Finset.sum_congr rfl fun u _ => congrArg (· * v64 (ix2 (0 : Fin 1) u)) ?_
  refine (hidden2_entry _ v54 v57 i j u h).trans (congrArg relu (congrArg (· + v57 (ix2 (0 : Fin 1) u)) ?_))
  refine Finset.sum_congr rfl fun k _ => congrArg (· * v54 (ix2 k u)) ?_
  refine (hidden1_entry _ _ v45 i j k).trans ?_
  unfold pairHidden
  rw [feat_apply, feat_apply, shapeCast_self, shapeCast_self]

end Cert.KernelIdeal.PairBlock

end
-- ==== Proof.OutBlock.lean ====
/-
  The body's closing stage at one grid point.  The one number it stores is the trajectory part's single entry plus the
  sum over rows, then over the column of row sums, of the 32 × 32 matrix of edge-weighted pair energies; the pair part
  reads the feature block re-laid as 32 × 400 and the edge block re-laid as 32 × 32.  Put together with the two parts'
  values this is the batch element's energy in its cut form.
-/
import proofs.«101939_j86011015070455_1_alg».proof.Proof.Gen.KernelIdeal.Frame
import proofs.«101939_j86011015070455_1_alg».proof.Proof.TrajBlock
import proofs.«101939_j86011015070455_1_alg».proof.Proof.PairBlock
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.OutBlock

open Idealize.ShloMosaic Idealize.ShloMosaic.ValueIdx Cert.KernelIdeal Cert.KernelIdeal.Gen Cert.Energy
open scoped BigOperators

theorem hz3 : (![0, 0, 0] : Fin 3 → Nat) = fun _ => 0 := funext fun a => by fin_cases a <;> rfl
theorem hz2 : (![0, 0] : Fin 2 → Nat) = fun _ => 0 := funext fun a => by fin_cases a <;> rfl

/-- A lane sum along a 32 × 32 matrix's rows, read at row i. -/
theorem rowsum (B : FVec Ideal S32x32 .f32) (h : S32x32.Reduces [1] S32) (hφ : FKind.Formats .f32)
    (hacc : (0x00000000#32 : BitVec 32) = 0x00000000#32) (i : Fin 32) :
    multiReduction (F := Ideal) .add [1] S32 B 0x00000000#32 h hφ hacc (ix1 i) = ∑ j : Fin 32, B (ix2 i j) := by
  refine (Ideal.multiReduction_add_single B 0x00000000#32 h hφ hacc (ix1 i)).trans ?_
  exact Finset.sum_congr rfl fun j _ => congrArg B (funext fun a => Fin.ext (by
    match a with
    | ⟨0, _⟩ => rfl
    | ⟨1, _⟩ => rfl))

/-- The sum down a 32 × 1 column. -/
theorem colsum (C : FVec Ideal S32x1 .f32) (h : S32x1.Reduces [0] S1) (hφ : FKind.Formats .f32)
    (hacc : (0x00000000#32 : BitVec 32) = 0x00000000#32) :
    multiReduction (F := Ideal) .add [0] S1 C 0x00000000#32 h hφ hacc (ix1 0) = ∑ i : Fin 32, C (ix2 i 0) := by
  refine (Ideal.multiReduction_add_single C 0x00000000#32 h hφ hacc (ix1 0)).trans ?_
  exact Finset.sum_congr rfl fun i _ => congrArg C (funext fun a => Fin.ext (by
    match a with
    | ⟨0, _⟩ => rfl
    | ⟨1, _⟩ => rfl))

/-- The closing stage: the trajectory number plus the matrix's entries summed row by row. -/
theorem pay1_entry (A : FVec Ideal S1x1 .f32) (B : FVec Ideal S32x32 .f32) :
    k0_pay1 (F := Ideal) A B (ix3 0 0 0) = A (ix2 0 0) + ∑ i : Fin 32, ∑ j : Fin 32, B (ix2 i j) := by
  unfold k0_pay1
  refine (shapeCast_ab_1ab_apply _ _ 0 0 0).trans ?_
  show A (ix2 0 0) + shapeCast S1x1 (multiReduction (F := Ideal) .add [0] S1 (shapeCast S32x1 (multiReduction (F := Ideal) .add [1] S32 B 0x00000000#32
      reduces_S32x32_S32 (.inl rfl) rfl) shapeCasts_S32_S32x1) 0x00000000#32 reduces_S32x1_S1 (.inl rfl) rfl) shapeCasts_S1_S1x1 (ix2 0 0) = _
  congr 1
  refine (shapeCast_a_1a_apply _ _ 0 0).trans ?_
  refine (colsum _ _ _ _).trans ?_
  refine Finset.sum_congr rfl fun i _ => ?_
  refine (shapeCast_apply _ shapeCasts_S32_S32x1 (ix2 i 0) (ix1 i) (by
    rw [Shape.rowMajor_val_one, Shape.rowMajor_val_two]
    show i.val = i.val * 1 + 0
    omega)).trans ?_
  exact rowsum B _ _ _ i

/-- The feature block re-laid as 32 × 400 (its change of format is the identity). -/
theorem pay2_entry (x0 : Vec Ideal S1x32x400 .f32) (i : Fin 32) (k : Fin 400) :
    k0_pay2 (F := Ideal) x0 (ix2 i k) = x0 (ix3 0 i k) := by
  unfold k0_pay2
  exact shapeCast_1ab_ab_apply x0 _ i k

/-- The edge block re-laid as 32 × 32. -/
theorem pay3_entry (x1 : Vec Ideal S1x32x32 .f32) (i j : Fin 32) :
    k0_pay3 (F := Ideal) x1 (ix2 i j) = x1 (ix3 0 i j) := by
  unfold k0_pay3
  exact shapeCast_1ab_ab_apply x1 _ i j

/-- The number a grid point stores is its batch element's energy, the first pair layer in its cut form, over the
    windows' blocks read at plain coordinates. -/
theorem out_block (x0 : Vec Ideal S1x32x400 .f32) (x1 : Vec Ideal S1x32x32 .f32) (x2 : Vec Ideal S400x1024 .bf16) (x3 : Vec Ideal S1x1024 .f32) (x4 : Vec Ideal S1024x1024 .bf16) (x5 : Vec Ideal S1x1024 .f32) (x6 : Vec Ideal S1024x1 .bf16) (x7 : Vec Ideal S1x1 .f32) (x8 x9 : Vec Ideal S400x1024 .bf16) (x10 : Vec Ideal S1x1024 .f32) (x11 : Vec Ideal S1024x1024 .bf16) (x12 x13 : Vec Ideal S1x1024 .f32) (x14 : Vec Ideal S1x1 .f32) :
    out0_15 (F := Ideal) x0 x1 x2 x3 x4 x5 x6 x7 x8 x9 x10 x11 x12 x13 x14 (ix3 0 0 0)
      = block (fun i k => x0 (ix3 0 i k)) (fun i j => x1 (ix3 0 i j)) (fun k u => x2 (ix2 k u)) (fun u => x3 (ix2 0 u)) (fun k u => x4 (ix2 k u)) (fun u => x5 (ix2 0 u)) (fun k => x6 (ix2 k 0)) (x7 (ix2 0 0)) (fun k u => x8 (ix2 k u)) (fun k u => x9 (ix2 k u)) (fun u => x10 (ix2 0 u)) (fun k u => x11 (ix2 k u)) (fun u => x12 (ix2 0 u)) (fun u => x13 (ix2 0 u)) (x14 (ix2 0 0)) := by
  unfold out0_15
  rw [View.canon_unit_zero hz3]
  simp only [View.ld_unit_zero (S := S1x32x400) hz3, View.ld_unit_zero (S := S1x32x32) hz3, View.ld_unit_zero (S := S400x1024) hz2,
    View.ld_unit_zero (S := S1x1024) hz2, View.ld_unit_zero (S := S1024x1024) hz2, View.ld_unit_zero (S := S1024x1) hz2,
    View.ld_unit_zero (S := S1x1) hz2]
  rw [pay1_entry, TrajBlock.traj_sum]
  unfold block
  congr 1
  refine Finset.sum_congr rfl fun i _ => Finset.sum_congr rfl fun j _ => ?_
  rw [PairBlock.pair_entry]
  simp only [pay2_entry, pay3_entry]

end Cert.KernelIdeal.OutBlock

end
-- ==== Proof.Features.lean ====
/-
  Agent i's 400 trajectory features in batch b, read off the input array of shape 128 × 128 × 100: the agent owns the
  four consecutive rows 4 i, 4 i + 1, 4 i + 2, 4 i + 3, and its features are those rows laid end to end, so feature k sits in
  row 4 i + k / 100 at column k % 100.
-/
import proofs.«101939_j86011015070455_1_alg».proof.Proof.Energy
import Idealize.ShloMosaic.Lib.ValueIdx

noncomputable section

namespace Cert.Energy

open Idealize.ShloMosaic Idealize.ShloMosaic.ValueIdx

/-- Feature k of agent i in batch b. -/
def feat (x : (⟨3, ![128, 128, 100]⟩ : Shape).Idx → EReal) (b : Fin 128) (i : Fin 32) (k : Fin 400) : EReal :=
  x (ix3 b ⟨4 * i.val + k.val / 100, by have := i.isLt; have := k.isLt; omega⟩ ⟨k.val % 100, Nat.mod_lt _ (by decide)⟩)

end Cert.Energy

end
-- ==== Proof.WindowsTraj.lean ====
/-
  What each window's block holds at grid point t, in terms of the argument arrays as launched.  The host lines before
  the region only re-lay or re-format the arguments (a reshape, a change of float format, which is the identity on the
  extended reals, a slice of rows), so: the feature block of batch t is the agents' features of batch t; the edge block
  is batch t's edge matrix; every weight and bias block is the whole weight or bias; the pair perceptron's first
  weight matrix arrives as its upper 400 rows and its lower 400 rows.
-/
import proofs.«101939_j86011015070455_1_alg».proof.Proof.Gen.KernelIdeal.Frame
import proofs.«101939_j86011015070455_1_alg».proof.Proof.Features
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.WindowsTraj

open Idealize.ShloMosaic Idealize.ShloMosaic.TcCoe Idealize.ShloMosaic.ValueIdx Idealize.SL.Sem Cert.KernelIdeal Cert.KernelIdeal.Gen Cert.Energy

variable (m : (ℓ : Loc nD τ sig) → Buf (Elt Ideal) ℓ)

/-- Argument array `r` of core `c` as launched. -/
abbrev arg (c : Dev nD) (r : Ref sig .tc) : Buf (Elt Ideal) ((c.tc : Thread nD τ).loc r) := m ((c.tc : Thread nD τ).loc r)

/-- The grid point as a batch number. -/
abbrev batch (t : Fin cfg0.N) : Fin 128 := ⟨t.val, t.isLt⟩

/-! ## The arrays the region finds: each staged array as a re-laying of a launched argument -/

/-- The feature array the first window stages is the launched features re-laid as 128 × 32 × 400. -/
theorem v0_eq (c : Dev nD) : (V m c main_v0 : S128x32x400.Idx → EReal)
    = shapeCast S128x32x400 (arg m c main_arg0 : S128x128x100.Idx → EReal) shapeCasts_S128x128x100_S128x32x400 := by
  show StableHlo.after hostOps0 (fun b => m (c, b)) (Proc.devRef .tc main_v0) = _
  after_results; rfl

/-- The first weight matrix in the narrower float format: on the extended reals, the matrix itself. -/
theorem v1_eq (c : Dev nD) : (V m c main_v1 : S400x1024.Idx → EReal) = (arg m c main_arg2 : S400x1024.Idx → EReal) := by
  show StableHlo.after hostOps0 (fun b => m (c, b)) (Proc.devRef .tc main_v1) = _
  after_results; rfl

/-- The second weight matrix likewise. -/
theorem v2_eq (c : Dev nD) : (V m c main_v2 : S1024x1024.Idx → EReal) = (arg m c main_arg4 : S1024x1024.Idx → EReal) := by
  show StableHlo.after hostOps0 (fun b => m (c, b)) (Proc.devRef .tc main_v2) = _
  after_results; rfl

/-- The output weight column likewise. -/
theorem v3_eq (c : Dev nD) : (V m c main_v3 : S1024x1.Idx → EReal) = (arg m c main_arg6 : S1024x1.Idx → EReal) := by
  show StableHlo.after hostOps0 (fun b => m (c, b)) (Proc.devRef .tc main_v3) = _
  after_results; rfl

/-- The first bias as a row. -/
theorem v9_eq (c : Dev nD) : (V m c main_v9 : S1x1024.Idx → EReal)
    = shapeCast S1x1024 (arg m c main_arg3 : S1024.Idx → EReal) shapeCasts_S1024_S1x1024 := by
  show StableHlo.after hostOps0 (fun b => m (c, b)) (Proc.devRef .tc main_v9) = _
  after_results; rfl

/-- The second bias as a row. -/
theorem v10_eq (c : Dev nD) : (V m c main_v10 : S1x1024.Idx → EReal)
    = shapeCast S1x1024 (arg m c main_arg5 : S1024.Idx → EReal) shapeCasts_S1024_S1x1024 := by
  show StableHlo.after hostOps0 (fun b => m (c, b)) (Proc.devRef .tc main_v10) = _
  after_results; rfl

/-- The output bias as a 1 × 1 array. -/
theorem v11_eq (c : Dev nD) : (V m c main_v11 : S1x1.Idx → EReal)
    = shapeCast S1x1 (arg m c main_arg7 : S1.Idx → EReal) shapeCasts_S1_S1x1 := by
  show StableHlo.after hostOps0 (fun b => m (c, b)) (Proc.devRef .tc main_v11) = _
  after_results; rfl

/-! ## Reading the re-laid arrays at an index -/

/-- Row-major position (b · 32 + i) · 400 + k of the 128 × 32 × 400 laying is position
    (b · 128 + (4 i + k / 100)) · 100 + k % 100 of the 128 × 128 × 100 one: feature k of agent i. -/
theorem reshape_feat (x : S128x128x100.Idx → EReal) (b : Fin 128) (i : Fin 32) (k : Fin 400) :
    shapeCast S128x32x400 x shapeCasts_S128x128x100_S128x32x400 (ix3 b i k) = feat x b i k := by
  unfold feat
  refine shapeCast_apply x _ _ _ ?_
  rw [Shape.rowMajor_val_three, Shape.rowMajor_val_three]
  show (b.val * 128 + (4 * i.val + k.val / 100)) * 100 + k.val % 100 = (b.val * 32 + i.val) * 400 + k.val
  omega

/-! ## The block index of each window at a grid point -/

/-- The per-batch windows sit at block (t, 0, 0); the whole-array windows at block (0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-! ## The blocks -/

theorem blk0 (c : Dev nD) (t : Fin cfg0.N) (i : Fin 32) (k : Fin 400) :
    (iblk m c 0 t : S1x32x400.Idx → EReal) (ix3 0 i k) = feat (arg m c main_arg0) (batch t) i k := by
  show V m c main_v0 (((cfg0.win 0).blk t).view.emb (ix3 0 i k)) = _
  have hemb : ((cfg0.win 0).blk t).view.emb (ix3 (0 : Fin 1) i k) = (ix3 (batch t) i k : S128x32x400.Idx) := by
    obtain ⟨⟨e0, e1, e2⟩, -⟩ := idx_facts t
    funext a; apply Fin.ext
    match a with
    | ⟨0, _⟩ => show win0_0.index t (0 : Fin 3) * 1 + 1 * (0 : Fin 1).val = t.val; rw [e0]; show t.val * 1 + 1 * 0 = t.val; omega
    | ⟨1, _⟩ => show win0_0.index t (1 : Fin 3) * 32 + 1 * i.val = i.val; rw [e1]; omega
    | ⟨2, _⟩ => show win0_0.index t (2 : Fin 3) * 400 + 1 * k.val = k.val; rw [e2]; omega
  rw [hemb, v0_eq]
  exact reshape_feat _ _ _ _
theorem blk1 (c : Dev nD) (t : Fin cfg0.N) (i j : Fin 32) :
    (iblk m c 1 t : S1x32x32.Idx → EReal) (ix3 0 i j) = (arg m c main_arg1 : S128x32x32.Idx → EReal) (ix3 (batch t) i j) := by
  show V m c main_arg1 (((cfg0.win 1).blk t).view.emb (ix3 0 i j)) = _
  have hemb : ((cfg0.win 1).blk t).view.emb (ix3 (0 : Fin 1) i j) = (ix3 (batch t) i j : S128x32x32.Idx) := by
    obtain ⟨-, ⟨e0, e1, e2⟩, -⟩ := idx_facts t
    funext a; apply Fin.ext
    match a with
    | ⟨0, _⟩ => show win0_1.index t (0 : Fin 3) * 1 + 1 * (0 : Fin 1).val = t.val; rw [e0]; show t.val * 1 + 1 * 0 = t.val; omega
    | ⟨1, _⟩ => show win0_1.index t (1 : Fin 3) * 32 + 1 * i.val = i.val; rw [e1]; omega
    | ⟨2, _⟩ => show win0_1.index t (2 : Fin 3) * 32 + 1 * j.val = j.val; rw [e2]; omega
  rw [hemb, V_main_arg1]
theorem blk2 (c : Dev nD) (t : Fin cfg0.N) (k : Fin 400) (u : Fin 1024) :
    (iblk m c 2 t : S400x1024.Idx → EReal) (ix2 k u) = (arg m c main_arg2 : S400x1024.Idx → EReal) (ix2 k u) := by
  show V m c main_v1 (((cfg0.win 2).blk t).view.emb (ix2 k u)) = _
  have hemb : ((cfg0.win 2).blk t).view.emb (ix2 k u) = (ix2 k u : S400x1024.Idx) := by
    obtain ⟨-, -, ⟨e0, e1⟩, -⟩ := idx_facts t
    funext a; apply Fin.ext
    match a with
    | ⟨0, _⟩ => show win0_2.index t (0 : Fin 2) * 400 + 1 * k.val = k.val; rw [e0]; omega
    | ⟨1, _⟩ => show win0_2.index t (1 : Fin 2) * 1024 + 1 * u.val = u.val; rw [e1]; omega
  rw [hemb, v1_eq]
theorem blk3 (c : Dev nD) (t : Fin cfg0.N) (u : Fin 1024) :
    (iblk m c 3 t : S1x1024.Idx → EReal) (ix2 0 u) = (arg m c main_arg3 : S1024.Idx → EReal) (ix1 u) := by
  show V m c main_v9 (((cfg0.win 3).blk t).view.emb (ix2 0 u)) = _
  have hemb : ((cfg0.win 3).blk t).view.emb (ix2 (0 : Fin 1) u) = (ix2 (0 : Fin 1) u : S1x1024.Idx) := by
    obtain ⟨-, -, -, ⟨e0, e1⟩, -⟩ := idx_facts t
    funext a; apply Fin.ext
    match a with
    | ⟨0, _⟩ => show win0_3.index t (0 : Fin 2) * 1 + 1 * (0 : Fin 1).val = (0 : Fin 1).val; rw [e0]; rfl
    | ⟨1, _⟩ => show win0_3.index t (1 : Fin 2) * 1024 + 1 * u.val = u.val; rw [e1]; omega
  rw [hemb, v9_eq]
  exact shapeCast_a_1a_apply _ _ _ _
theorem blk4 (c : Dev nD) (t : Fin cfg0.N) (k u : Fin 1024) :
    (iblk m c 4 t : S1024x1024.Idx → EReal) (ix2 k u) = (arg m c main_arg4 : S1024x1024.Idx → EReal) (ix2 k u) := by
  show V m c main_v2 (((cfg0.win 4).blk t).view.emb (ix2 k u)) = _
  have hemb : ((cfg0.win 4).blk t).view.emb (ix2 k u) = (ix2 k u : S1024x1024.Idx) := by
    obtain ⟨-, -, -, -, ⟨e0, e1⟩, -⟩ := idx_facts t
    funext a; apply Fin.ext
    match a with
    | ⟨0, _⟩ => show win0_4.index t (0 : Fin 2) * 1024 + 1 * k.val = k.val; rw [e0]; omega
    | ⟨1, _⟩ => show win0_4.index t (1 : Fin 2) * 1024 + 1 * u.val = u.val; rw [e1]; omega
  rw [hemb, v2_eq]
theorem blk5 (c : Dev nD) (t : Fin cfg0.N) (u : Fin 1024) :
    (iblk m c 5 t : S1x1024.Idx → EReal) (ix2 0 u) = (arg m c main_arg5 : S1024.Idx → EReal) (ix1 u) := by
  show V m c main_v10 (((cfg0.win 5).blk t).view.emb (ix2 0 u)) = _
  have hemb : ((cfg0.win 5).blk t).view.emb (ix2 (0 : Fin 1) u) = (ix2 (0 : Fin 1) u : S1x1024.Idx) := by
    obtain ⟨-, -, -, -, -, ⟨e0, e1⟩, -⟩ := idx_facts t
    funext a; apply Fin.ext
    match a with
    | ⟨0, _⟩ => show win0_5.index t (0 : Fin 2) * 1 + 1 * (0 : Fin 1).val = (0 : Fin 1).val; rw [e0]; rfl
    | ⟨1, _⟩ => show win0_5.index t (1 : Fin 2) * 1024 + 1 * u.val = u.val; rw [e1]; omega
  rw [hemb, v10_eq]
  exact shapeCast_a_1a_apply _ _ _ _
theorem blk6 (c : Dev nD) (t : Fin cfg0.N) (k : Fin 1024) :
    (iblk m c 6 t : S1024x1.Idx → EReal) (ix2 k 0) = (arg m c main_arg6 : S1024x1.Idx → EReal) (ix2 k 0) := by
  show V m c main_v3 (((cfg0.win 6).blk t).view.emb (ix2 k 0)) = _
  have hemb : ((cfg0.win 6).blk t).view.emb (ix2 k (0 : Fin 1)) = (ix2 k (0 : Fin 1) : S1024x1.Idx) := by
    obtain ⟨-, -, -, -, -, -, ⟨e0, e1⟩, -⟩ := idx_facts t
    funext a; apply Fin.ext
    match a with
    | ⟨0, _⟩ => show win0_6.index t (0 : Fin 2) * 1024 + 1 * k.val = k.val; rw [e0]; omega
    | ⟨1, _⟩ => show win0_6.index t (1 : Fin 2) * 1 + 1 * (0 : Fin 1).val = (0 : Fin 1).val; rw [e1]; rfl
  rw [hemb, v3_eq]
theorem blk7 (c : Dev nD) (t : Fin cfg0.N) :
    (iblk m c 7 t : S1x1.Idx → EReal) (ix2 0 0) = (arg m c main_arg7 : S1.Idx → EReal) (ix1 0) := by
  show V m c main_v11 (((cfg0.win 7).blk t).view.emb (ix2 0 0)) = _
  have hemb : ((cfg0.win 7).blk t).view.emb (ix2 (0 : Fin 1) (0 : Fin 1)) = (ix2 (0 : Fin 1) (0 : Fin 1) : S1x1.Idx) := by
    obtain ⟨-, -, -, -, -, -, -, ⟨e0, e1⟩⟩ := idx_facts t
    funext a; apply Fin.ext
    match a with
    | ⟨0, _⟩ => show win0_7.index t (0 : Fin 2) * 1 + 1 * (0 : Fin 1).val = (0 : Fin 1).val; rw [e0]; rfl
    | ⟨1, _⟩ => show win0_7.index t (1 : Fin 2) * 1 + 1 * (0 : Fin 1).val = (0 : Fin 1).val; rw [e1]; rfl
  rw [hemb, v11_eq]
  exact shapeCast_a_1a_apply _ _ _ _
end Cert.KernelIdeal.WindowsTraj

end
-- ==== Proof.WindowsPair.lean ====
/-
  What each window's block holds at grid point t, in terms of the argument arrays as launched.  The host lines before
  the region only re-lay or re-format the arguments (a reshape, a change of float format, which is the identity on the
  extended reals, a slice of rows), so: the feature block of batch t is the agents' features of batch t; the edge block
  is batch t's edge matrix; every weight and bias block is the whole weight or bias; the pair perceptron's first
  weight matrix arrives as its upper 400 rows and its lower 400 rows.
-/
import proofs.«101939_j86011015070455_1_alg».proof.Proof.Gen.KernelIdeal.Frame
import proofs.«101939_j86011015070455_1_alg».proof.Proof.Features
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.WindowsPair

open Idealize.ShloMosaic Idealize.ShloMosaic.TcCoe Idealize.ShloMosaic.ValueIdx Idealize.SL.Sem Cert.KernelIdeal Cert.KernelIdeal.Gen Cert.Energy

variable (m : (ℓ : Loc nD τ sig) → Buf (Elt Ideal) ℓ)

/-- Argument array `r` of core `c` as launched. -/
abbrev arg (c : Dev nD) (r : Ref sig .tc) : Buf (Elt Ideal) ((c.tc : Thread nD τ).loc r) := m ((c.tc : Thread nD τ).loc r)

/-- The grid point as a batch number. -/
abbrev batch (t : Fin cfg0.N) : Fin 128 := ⟨t.val, t.isLt⟩

/-! ## The arrays the region finds: each staged array as the host lines made it from an argument -/

/-- The array of window 8: rows [0, 400) of the pair perceptron's first weight matrix, its format changed. -/
theorem V_v5 (c : Dev nD) :
    @Eq (S400x1024.Idx → EReal) (V m c main_v5)
      (truncf (F := Ideal) .bf16 (extractStridedSlice S400x1024 ![0, 0] (arg m c main_arg8 : S800x1024.Idx → EReal) slices_S800x1024_S400x1024_0_0 : FVec Ideal S400x1024 .f32) bitsLt_bf16_f32) := by
  show StableHlo.after hostOps0 (fun b => m (c, b)) (Proc.devRef .tc main_v5) = _
  after_results

/-- The array of window 9: rows [400, 800) of the same matrix, its format changed. -/
theorem V_v7 (c : Dev nD) :
    @Eq (S400x1024.Idx → EReal) (V m c main_v7)
      (truncf (F := Ideal) .bf16 (extractStridedSlice S400x1024 ![400, 0] (arg m c main_arg8 : S800x1024.Idx → EReal) slices_S800x1024_S400x1024_400_0 : FVec Ideal S400x1024 .f32) bitsLt_bf16_f32) := by
  show StableHlo.after hostOps0 (fun b => m (c, b)) (Proc.devRef .tc main_v7) = _
  after_results

/-- The array of window 10: the first pair bias as one row. -/
theorem V_v12 (c : Dev nD) :
    @Eq (S1x1024.Idx → EReal) (V m c main_v12)
      (shapeCast S1x1024 (arg m c main_arg9 : S1024.Idx → EReal) shapeCasts_S1024_S1x1024) := by
  show StableHlo.after hostOps0 (fun b => m (c, b)) (Proc.devRef .tc main_v12) = _
  after_results
  rfl

/-- The array of window 11: the second pair weight matrix, its format changed. -/
theorem V_v8 (c : Dev nD) :
    @Eq (S1024x1024.Idx → EReal) (V m c main_v8)
      (truncf (F := Ideal) .bf16 (arg m c main_arg10 : FVec Ideal S1024x1024 .f32) bitsLt_bf16_f32) := by
  show StableHlo.after hostOps0 (fun b => m (c, b)) (Proc.devRef .tc main_v8) = _
  after_results

/-- The array of window 12: the second pair bias as one row. -/
theorem V_v13 (c : Dev nD) :
    @Eq (S1x1024.Idx → EReal) (V m c main_v13)
      (shapeCast S1x1024 (arg m c main_arg11 : S1024.Idx → EReal) shapeCasts_S1024_S1x1024) := by
  show StableHlo.after hostOps0 (fun b => m (c, b)) (Proc.devRef .tc main_v13) = _
  after_results
  rfl

/-- The array of window 13: the pair perceptron's output column laid as one row. -/
theorem V_v14 (c : Dev nD) :
    @Eq (S1x1024.Idx → EReal) (V m c main_v14)
      (shapeCast S1x1024 (arg m c main_arg12 : S1024x1.Idx → EReal) shapeCasts_S1024x1_S1x1024) := by
  show StableHlo.after hostOps0 (fun b => m (c, b)) (Proc.devRef .tc main_v14) = _
  after_results
  rfl

/-- The array of window 14: the pair perceptron's output bias as a one-by-one array. -/
theorem V_v15 (c : Dev nD) :
    @Eq (S1x1.Idx → EReal) (V m c main_v15)
      (shapeCast S1x1 (arg m c main_arg13 : S1.Idx → EReal) shapeCasts_S1_S1x1) := by
  show StableHlo.after hostOps0 (fun b => m (c, b)) (Proc.devRef .tc main_v15) = _
  after_results
  rfl

/-! ## The host operations read at an index -/

/-- Rows [0, 400) of an 800-row matrix are its upper rows. -/
theorem slice_upper (x : S800x1024.Idx → EReal) (k : Fin 400) (u : Fin 1024) :
    extractStridedSlice S400x1024 ![0, 0] x slices_S800x1024_S400x1024_0_0 (ix2 k u) = upper (fun k u => x (ix2 k u)) k u := by
  unfold upper
  refine extractStridedSlice_apply _ x _ _ _ (fun a => ?_)
  match a with
  | ⟨0, _⟩ => show k.val = 0 + k.val; omega
  | ⟨1, _⟩ => show u.val = 0 + u.val; omega

/-- Rows [400, 800) are its lower rows. -/
theorem slice_lower (x : S800x1024.Idx → EReal) (k : Fin 400) (u : Fin 1024) :
    extractStridedSlice S400x1024 ![400, 0] x slices_S800x1024_S400x1024_400_0 (ix2 k u) = lower (fun k u => x (ix2 k u)) k u := by
  unfold lower
  refine extractStridedSlice_apply _ x _ _ _ (fun a => ?_)
  match a with
  | ⟨0, _⟩ => show 400 + k.val = 400 + k.val; rfl
  | ⟨1, _⟩ => show u.val = 0 + u.val; omega

/-- A column of 1024 entries laid as one row: entry (0, u) of the row is entry (u, 0) of the column. -/
theorem column_as_row (x : S1024x1.Idx → EReal) (u : Fin 1024) :
    shapeCast S1x1024 x shapeCasts_S1024x1_S1x1024 (ix2 (0 : Fin 1) u) = x (ix2 u (0 : Fin 1)) :=
  shapeCast_apply x _ _ _ (by
    rw [Shape.rowMajor_val_two, Shape.rowMajor_val_two]
    show u.val * 1 + 0 = 0 * 1024 + u.val
    omega)

/-! ## The block indices: every one of these windows stages its whole array at every grid point -/

theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)

/-- Window 8's block sits at the array's origin: a block coordinate is the array coordinate. -/
theorem emb8 (t : Fin cfg0.N) (k : Fin 400) (u : Fin 1024) :
    ((cfg0.win 8).blk t).view.emb (ix2 k u) = (ix2 k u : S400x1024.Idx) := by
  obtain ⟨e0, e1⟩ := idx8 t
  funext a; apply Fin.ext
  match a with
  | ⟨0, _⟩ => show win0_8.index t (0 : Fin 2) * 400 + 1 * k.val = k.val; omega
  | ⟨1, _⟩ => show win0_8.index t (1 : Fin 2) * 1024 + 1 * u.val = u.val; omega
theorem emb9 (t : Fin cfg0.N) (k : Fin 400) (u : Fin 1024) :
    ((cfg0.win 9).blk t).view.emb (ix2 k u) = (ix2 k u : S400x1024.Idx) := by
  obtain ⟨e0, e1⟩ := idx9 t
  funext a; apply Fin.ext
  match a with
  | ⟨0, _⟩ => show win0_9.index t (0 : Fin 2) * 400 + 1 * k.val = k.val; omega
  | ⟨1, _⟩ => show win0_9.index t (1 : Fin 2) * 1024 + 1 * u.val = u.val; omega
theorem emb10 (t : Fin cfg0.N) (z : Fin 1) (u : Fin 1024) :
    ((cfg0.win 10).blk t).view.emb (ix2 z u) = (ix2 z u : S1x1024.Idx) := by
  obtain ⟨e0, e1⟩ := idx10 t
  funext a; apply Fin.ext
  match a with
  | ⟨0, _⟩ => show win0_10.index t (0 : Fin 2) * 1 + 1 * z.val = z.val; omega
  | ⟨1, _⟩ => show win0_10.index t (1 : Fin 2) * 1024 + 1 * u.val = u.val; omega
theorem emb11 (t : Fin cfg0.N) (k u : Fin 1024) :
    ((cfg0.win 11).blk t).view.emb (ix2 k u) = (ix2 k u : S1024x1024.Idx) := by
  obtain ⟨e0, e1⟩ := idx11 t
  funext a; apply Fin.ext
  match a with
  | ⟨0, _⟩ => show win0_11.index t (0 : Fin 2) * 1024 + 1 * k.val = k.val; omega
  | ⟨1, _⟩ => show win0_11.index t (1 : Fin 2) * 1024 + 1 * u.val = u.val; omega
theorem emb12 (t : Fin cfg0.N) (z : Fin 1) (u : Fin 1024) :
    ((cfg0.win 12).blk t).view.emb (ix2 z u) = (ix2 z u : S1x1024.Idx) := by
  obtain ⟨e0, e1⟩ := idx12 t
  funext a; apply Fin.ext
  match a with
  | ⟨0, _⟩ => show win0_12.index t (0 : Fin 2) * 1 + 1 * z.val = z.val; omega
  | ⟨1, _⟩ => show win0_12.index t (1 : Fin 2) * 1024 + 1 * u.val = u.val; omega
theorem emb13 (t : Fin cfg0.N) (z : Fin 1) (u : Fin 1024) :
    ((cfg0.win 13).blk t).view.emb (ix2 z u) = (ix2 z u : S1x1024.Idx) := by
  obtain ⟨e0, e1⟩ := idx13 t
  funext a; apply Fin.ext
  match a with
  | ⟨0, _⟩ => show win0_13.index t (0 : Fin 2) * 1 + 1 * z.val = z.val; omega
  | ⟨1, _⟩ => show win0_13.index t (1 : Fin 2) * 1024 + 1 * u.val = u.val; omega
theorem emb14 (t : Fin cfg0.N) (z w : Fin 1) :
    ((cfg0.win 14).blk t).view.emb (ix2 z w) = (ix2 z w : S1x1.Idx) := by
  obtain ⟨e0, e1⟩ := idx14 t
  funext a; apply Fin.ext
  match a with
  | ⟨0, _⟩ => show win0_14.index t (0 : Fin 2) * 1 + 1 * z.val = z.val; omega
  | ⟨1, _⟩ => show win0_14.index t (1 : Fin 2) * 1 + 1 * w.val = w.val; omega

/-! ## The blocks -/

theorem blk8 (c : Dev nD) (t : Fin cfg0.N) (k : Fin 400) (u : Fin 1024) :
    (iblk m c 8 t : S400x1024.Idx → EReal) (ix2 k u) = upper (fun k u => (arg m c main_arg8 : S800x1024.Idx → EReal) (ix2 k u)) k u := by
  show (V m c main_v5 : S400x1024.Idx → EReal) (((cfg0.win 8).blk t).view.emb (ix2 k u)) = _
  rw [emb8, V_v5, truncf_apply, slice_upper]
theorem blk9 (c : Dev nD) (t : Fin cfg0.N) (k : Fin 400) (u : Fin 1024) :
    (iblk m c 9 t : S400x1024.Idx → EReal) (ix2 k u) = lower (fun k u => (arg m c main_arg8 : S800x1024.Idx → EReal) (ix2 k u)) k u := by
  show (V m c main_v7 : S400x1024.Idx → EReal) (((cfg0.win 9).blk t).view.emb (ix2 k u)) = _
  rw [emb9, V_v7, truncf_apply, slice_lower]
theorem blk10 (c : Dev nD) (t : Fin cfg0.N) (u : Fin 1024) :
    (iblk m c 10 t : S1x1024.Idx → EReal) (ix2 0 u) = (arg m c main_arg9 : S1024.Idx → EReal) (ix1 u) := by
  show (V m c main_v12 : S1x1024.Idx → EReal) (((cfg0.win 10).blk t).view.emb (ix2 0 u)) = _
  rw [emb10, V_v12, shapeCast_a_1a_apply]
theorem blk11 (c : Dev nD) (t : Fin cfg0.N) (k u : Fin 1024) :
    (iblk m c 11 t : S1024x1024.Idx → EReal) (ix2 k u) = (arg m c main_arg10 : S1024x1024.Idx → EReal) (ix2 k u) := by
  show (V m c main_v8 : S1024x1024.Idx → EReal) (((cfg0.win 11).blk t).view.emb (ix2 k u)) = _
  rw [emb11, V_v8, truncf_apply]
theorem blk12 (c : Dev nD) (t : Fin cfg0.N) (u : Fin 1024) :
    (iblk m c 12 t : S1x1024.Idx → EReal) (ix2 0 u) = (arg m c main_arg11 : S1024.Idx → EReal) (ix1 u) := by
  show (V m c main_v13 : S1x1024.Idx → EReal) (((cfg0.win 12).blk t).view.emb (ix2 0 u)) = _
  rw [emb12, V_v13, shapeCast_a_1a_apply]
theorem blk13 (c : Dev nD) (t : Fin cfg0.N) (u : Fin 1024) :
    (iblk m c 13 t : S1x1024.Idx → EReal) (ix2 0 u) = (arg m c main_arg12 : S1024x1.Idx → EReal) (ix2 u 0) := by
  show (V m c main_v14 : S1x1024.Idx → EReal) (((cfg0.win 13).blk t).view.emb (ix2 0 u)) = _
  rw [emb13, V_v14, column_as_row]
theorem blk14 (c : Dev nD) (t : Fin cfg0.N) :
    (iblk m c 14 t : S1x1.Idx → EReal) (ix2 0 0) = (arg m c main_arg13 : S1.Idx → EReal) (ix1 0) := by
  show (V m c main_v15 : S1x1.Idx → EReal) (((cfg0.win 14).blk t).view.emb (ix2 0 0)) = _
  rw [emb14, V_v15, shapeCast_a_1a_apply]

end Cert.KernelIdeal.WindowsPair

end
-- ==== Proof.KernelValue.lean ====
/-
  The number grid point b stores, in terms of the argument arrays as launched: every block the body reads is the
  matching piece of an argument (batch b's features and edges, the whole weights and biases, the pair perceptron's
  first weight matrix as its upper and lower halves), so the number is batch b's energy in its cut form, which is the
  energy over the concatenated features.
-/
import proofs.«101939_j86011015070455_1_alg».proof.Proof.KernelRun
import proofs.«101939_j86011015070455_1_alg».proof.Proof.OutBlock
import proofs.«101939_j86011015070455_1_alg».proof.Proof.WindowsTraj
import proofs.«101939_j86011015070455_1_alg».proof.Proof.WindowsPair

noncomputable section

namespace Cert.KernelIdeal.KernelValue

open Idealize.ShloMosaic Idealize.ShloMosaic.TcCoe Idealize.ShloMosaic.ValueIdx Idealize.SL.Sem Cert.KernelIdeal Cert.KernelIdeal.Gen
open Cert.KernelIdeal.BlockRun Cert.Energy

variable (m : (ℓ : Loc nD τ sig) → Buf (Elt Ideal) ℓ)

/-- Point b's number is batch b's energy of the launched arguments. -/
theorem energyAt_eq (c : Dev nD) (b : Fin 128) :
    energyAt (F := Ideal) m c (point b)
      = total (feat (m ((c.tc : Thread nD τ).loc main_arg0) : S128x128x100.Idx → EReal) b) (fun i j => (m ((c.tc : Thread nD τ).loc main_arg1) : S128x32x32.Idx → EReal) (ix3 b i j)) (fun k u => (m ((c.tc : Thread nD τ).loc main_arg2) : S400x1024.Idx → EReal) (ix2 k u)) (fun u => (m ((c.tc : Thread nD τ).loc main_arg3) : S1024.Idx → EReal) (ix1 u)) (fun k u => (m ((c.tc : Thread nD τ).loc main_arg4) : S1024x1024.Idx → EReal) (ix2 k u)) (fun u => (m ((c.tc : Thread nD τ).loc main_arg5) : S1024.Idx → EReal) (ix1 u)) (fun k => (m ((c.tc : Thread nD τ).loc main_arg6) : S1024x1.Idx → EReal) (ix2 k 0)) ((m ((c.tc : Thread nD τ).loc main_arg7) : S1.Idx → EReal) (ix1 0)) (fun k u => (m ((c.tc : Thread nD τ).loc main_arg8) : S800x1024.Idx → EReal) (ix2 k u)) (fun u => (m ((c.tc : Thread nD τ).loc main_arg9) : S1024.Idx → EReal) (ix1 u)) (fun k u => (m ((c.tc : Thread nD τ).loc main_arg10) : S1024x1024.Idx → EReal) (ix2 k u)) (fun u => (m ((c.tc : Thread nD τ).loc main_arg11) : S1024.Idx → EReal) (ix1 u)) (fun k => (m ((c.tc : Thread nD τ).loc main_arg12) : S1024x1.Idx → EReal) (ix2 k 0)) ((m ((c.tc : Thread nD τ).loc main_arg13) : S1.Idx → EReal) (ix1 0)) := by
  unfold energyAt
  refine (OutBlock.out_block (iblk m c 0 (point b)) (iblk m c 1 (point b)) (iblk m c 2 (point b)) (iblk m c 3 (point b)) (iblk m c 4 (point b)) (iblk m c 5 (point b)) (iblk m c 6 (point b)) (iblk m c 7 (point b)) (iblk m c 8 (point b)) (iblk m c 9 (point b)) (iblk m c 10 (point b)) (iblk m c 11 (point b)) (iblk m c 12 (point b)) (iblk m c 13 (point b)) (iblk m c 14 (point b))).trans ?_
  rw [total_eq_block]
  simp only [WindowsTraj.blk0 m c (point b),
    WindowsTraj.blk1 m c (point b),
    WindowsTraj.blk2 m c (point b),
    WindowsTraj.blk3 m c (point b),
    WindowsTraj.blk4 m c (point b),
    WindowsTraj.blk5 m c (point b),
    WindowsTraj.blk6 m c (point b),
    WindowsTraj.blk7 m c (point b),
    WindowsPair.blk8 m c (point b),
    WindowsPair.blk9 m c (point b),
    WindowsPair.blk10 m c (point b),
    WindowsPair.blk11 m c (point b),
    WindowsPair.blk12 m c (point b),
    WindowsPair.blk13 m c (point b),
    WindowsPair.blk14 m c (point b)]

end Cert.KernelIdeal.KernelValue

end
-- ==== Proof.RefTraj.lean ====
/-
  The reference's trajectory energy of batch b: its rows b·32 + i of the flattened 4096 × 400 feature matrix are agent
  i's features, each goes through the three-layer perceptron, and the 32 results are summed (from a zero start).
-/
import proofs.«101939_j86011015070455_1_alg».proof.Proof.Gen.ReferenceIdeal.Read
import proofs.«101939_j86011015070455_1_alg».proof.Proof.Features
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefTraj

open Idealize.ShloMosaic Idealize.ShloMosaic.ValueIdx Cert.ReferenceIdeal Cert.ReferenceIdeal.Read Cert.Energy
open scoped BigOperators

/-- Row r of the flattened 4096 × 400 feature matrix. -/
def row (x0 : FVec Ideal S128x128x100 .f32) (r : Fin 4096) (k : Fin 400) : EReal :=
  val_main_v1 (F := Ideal) x0 (ix2 r k)

/-- The first hidden layer at row r, unit u: the activation of the first dense layer of that row. -/
theorem hidden1 (x0 : FVec Ideal S128x128x100 .f32) (x2 : FVec Ideal S400x1024 .f32) (x3 : FVec Ideal S1024 .f32)
    (r : Fin 4096) (u : Fin 1024) :
    val_main_v6 (F := Ideal) x0 x2 x3 (ix2 r u)
      = relu (dense (row x0 r) (fun k u => x2 (ix2 k u)) (fun u => x3 (ix1 u)) u) := by
  have el : ∀ k : Fin 400, lidx_main_v2 (ix2 r u) k = ix2 r k := fun k =>
    funext fun a => Fin.ext (by match a with | ⟨0, _⟩ => rfl | ⟨1, _⟩ => rfl)
  have er : ∀ k : Fin 400, ridx_main_v2 (ix2 r u) k = ix2 k u := fun k =>
    funext fun a => Fin.ext (by match a with | ⟨0, _⟩ => rfl | ⟨1, _⟩ => rfl)
  have eb : idx_main_v3 (idx_main_v4 (ix2 r u)) = ix1 u :=
    funext fun a => Fin.ext (by match a with | ⟨0, _⟩ => rfl)
  rw [val_main_v6_apply, val_main_v5_apply, val_main_v2_apply, val_main_v4_apply, val_main_v3_apply,
    val_main_call0_v0_apply, val_main_call0_cst_apply]
  simp only [Ideal.addf_def, Ideal.maximumf_def, Ideal.ofBits_def, Ideal.ofBits_zero_f32, el, er, eb]
  rfl

/-- The second hidden layer at row r, unit u, over the first hidden layer of the same row. -/
theorem hidden2 (x0 : FVec Ideal S128x128x100 .f32) (x2 : FVec Ideal S400x1024 .f32) (x3 : FVec Ideal S1024 .f32)
    (x4 : FVec Ideal S1024x1024 .f32) (x5 : FVec Ideal S1024 .f32) (r : Fin 4096) (u : Fin 1024) :
    val_main_v11 (F := Ideal) x0 x2 x3 x4 x5 (ix2 r u)
      = relu (dense (fun v => val_main_v6 (F := Ideal) x0 x2 x3 (ix2 r v)) (fun k u => x4 (ix2 k u)) (fun u => x5 (ix1 u)) u) := by
  have el : ∀ k : Fin 1024, lidx_main_v7 (ix2 r u) k = ix2 r k := fun k =>
    funext fun a => Fin.ext (by match a with | ⟨0, _⟩ => rfl | ⟨1, _⟩ => rfl)
  have er : ∀ k : Fin 1024, ridx_main_v7 (ix2 r u) k = ix2 k u := fun k =>
    funext fun a => Fin.ext (by match a with | ⟨0, _⟩ => rfl | ⟨1, _⟩ => rfl)
  have eb : idx_main_v8 (idx_main_v9 (ix2 r u)) = ix1 u :=
    funext fun a => Fin.ext (by match a with | ⟨0, _⟩ => rfl)
  rw [val_main_v11_apply, val_main_v10_apply, val_main_v7_apply, val_main_v9_apply, val_main_v8_apply,
    val_main_call1_v0_apply, val_main_call1_cst_apply]
  simp only [Ideal.addf_def, Ideal.maximumf_def, Ideal.ofBits_def, Ideal.ofBits_zero_f32, el, er, eb]
  rfl

/-- The perceptron's output at row r: the scalar head over the second hidden layer of that row. -/
theorem out_row (x0 : FVec Ideal S128x128x100 .f32) (x2 : FVec Ideal S400x1024 .f32) (x3 : FVec Ideal S1024 .f32)
    (x4 : FVec Ideal S1024x1024 .f32) (x5 : FVec Ideal S1024 .f32) (x6 : FVec Ideal S1024x1 .f32) (x7 : FVec Ideal S1 .f32)
    (r : Fin 4096) :
    val_main_v15 (F := Ideal) x0 x2 x3 x4 x5 x6 x7 (ix2 r 0)
      = mlp (row x0 r) (fun k u => x2 (ix2 k u)) (fun u => x3 (ix1 u)) (fun k u => x4 (ix2 k u))
          (fun u => x5 (ix1 u)) (fun k => x6 (ix2 k 0)) (x7 (ix1 0)) := by
  have el : ∀ k : Fin 1024, lidx_main_v12 (ix2 r (0 : Fin 1)) k = ix2 r k := fun k =>
    funext fun a => Fin.ext (by match a with | ⟨0, _⟩ => rfl | ⟨1, _⟩ => rfl)
  have er : ∀ k : Fin 1024, ridx_main_v12 (ix2 r (0 : Fin 1)) k = ix2 k 0 := fun k =>
    funext fun a => Fin.ext (by match a with | ⟨0, _⟩ => rfl | ⟨1, _⟩ => rfl)
  have eb : idx_main_v13 (idx_main_v14 (ix2 r (0 : Fin 1))) = ix1 0 :=
    funext fun a => Fin.ext (by match a with | ⟨0, _⟩ => rfl)
  rw [val_main_v15_apply, val_main_v12_apply, val_main_v14_apply, val_main_v13_apply]
  simp only [Ideal.addf_def, el, er, eb, hidden2, hidden1]
  rfl

/-- Row b·32 + i of the flattened feature matrix holds agent i's features of batch b. -/
theorem row_feat (x0 : FVec Ideal S128x128x100 .f32) (b : Fin 128) (i : Fin 32) (h : b.val * 32 + i.val < 4096) :
    row x0 ⟨b.val * 32 + i.val, h⟩ = feat x0 b i := by
  funext k
  have hb := b.isLt; have hi := i.isLt; have hk := k.isLt
  unfold row feat
  rw [val_main_v1_apply, val_main_v0_apply]
  refine congrArg x0 (funext fun a => Fin.ext ?_)
  match a with
  | ⟨0, _⟩ => show (((((b.val * 32 + i.val) * 400 + k.val) / 12800 * 32 + ((b.val * 32 + i.val) * 400 + k.val) / 400 % 32) * 4 + ((b.val * 32 + i.val) * 400 + k.val) / 100 % 4) * 100 + ((b.val * 32 + i.val) * 400 + k.val) % 100) / 12800 = b.val; omega
  | ⟨1, _⟩ => show (((((b.val * 32 + i.val) * 400 + k.val) / 12800 * 32 + ((b.val * 32 + i.val) * 400 + k.val) / 400 % 32) * 4 + ((b.val * 32 + i.val) * 400 + k.val) / 100 % 4) * 100 + ((b.val * 32 + i.val) * 400 + k.val) % 100) / 100 % 128 = 4 * i.val + k.val / 100; omega
  | ⟨2, _⟩ => show (((((b.val * 32 + i.val) * 400 + k.val) / 12800 * 32 + ((b.val * 32 + i.val) * 400 + k.val) / 400 % 32) * 4 + ((b.val * 32 + i.val) * 400 + k.val) / 100 % 4) * 100 + ((b.val * 32 + i.val) * 400 + k.val) % 100) % 100 = k.val % 100; omega

/-- The reference's trajectory term at batch b is the sum over agents of the perceptron of the agent's features. -/
theorem traj_sum (x0 : FVec Ideal S128x128x100 .f32) (x2 : FVec Ideal S400x1024 .f32) (x3 : FVec Ideal S1024 .f32)
    (x4 : FVec Ideal S1024x1024 .f32) (x5 : FVec Ideal S1024 .f32) (x6 : FVec Ideal S1024x1 .f32) (x7 : FVec Ideal S1 .f32) (b : Fin 128) :
    val_main_v18 (F := Ideal) x0 x2 x3 x4 x5 x6 x7 (ix2 b 0)
      = ∑ i : Fin 32, mlp (feat x0 b i) (fun k u => x2 (ix2 k u)) (fun u => x3 (ix1 u)) (fun k u => x4 (ix2 k u))
          (fun u => x5 (ix1 u)) (fun k => x6 (ix2 k 0)) (x7 (ix1 0)) := by
  have hb := b.isLt
  rw [val_main_v18_apply, val_main_v17_apply, val_main_cst_apply]
  simp only [Ideal.ofBits_def, Ideal.ofBits_zero_f32, zero_add]
  refine Finset.sum_congr rfl fun i _ => ?_
  have hi := i.isLt
  have hr : b.val * 32 + i.val < 4096 := by omega
  have ei : idx_main_v16 (idx_main_v17 (idx_main_v18 (ix2 b (0 : Fin 1))) i) = ix2 (⟨b.val * 32 + i.val, hr⟩ : Fin 4096) (0 : Fin 1) :=
    funext fun a => Fin.ext (by
      match a with
      | ⟨0, _⟩ => show (b.val * 32 + i.val) / 1 = b.val * 32 + i.val; omega
      | ⟨1, _⟩ => rfl)
  rw [val_main_v16_apply, ei, out_row, row_feat]

end Cert.ReferenceIdeal.RefTraj

end
-- ==== Proof.RefPairEntry.lean ====
/-
  The reference's interaction energy of one ordered pair (i, j) of agents in batch b: row (b·32 + i)·32 + j of the
  flattened 131072 × 800 pair matrix holds agent i's 400 features followed by agent j's, and goes through the second
  three-layer perceptron.
-/
import proofs.«101939_j86011015070455_1_alg».proof.Proof.Gen.ReferenceIdeal.Read
import proofs.«101939_j86011015070455_1_alg».proof.Proof.Features
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefPairEntry

open Idealize.ShloMosaic Idealize.ShloMosaic.ValueIdx Cert.ReferenceIdeal Cert.ReferenceIdeal.Read Cert.Energy
open scoped BigOperators

/-- The row of the flattened pair matrix that belongs to the ordered pair (i, j) of batch b. -/
def row (b : Fin 128) (i j : Fin 32) : Fin 131072 :=
  ⟨(b.val * 32 + i.val) * 32 + j.val, by have := b.isLt; have := i.isLt; have := j.isLt; omega⟩

/-- Along the channel axis the concatenation reads its first operand, the copy that follows agent i, below channel 4. -/
theorem cat_lo (x0 : FVec Ideal S128x128x100 .f32) (b : Fin 128) (i j : Fin 32) (c : Fin 8) (l : Fin 100) (h : c.val < 4) :
    val_main_v23 (F := Ideal) x0 (ix5 b i j c l) = val_main_v20 (F := Ideal) x0 (ix5 b i j ⟨c.val, h⟩ l) := by
  unfold val_main_v23
  refine concatenate_pair_apply_left (t := S128x32x32x8x100) (s₁ := S128x32x32x4x100) (s₂ := S128x32x32x4x100) 3
    (val_main_v20 (F := Ideal) x0) (val_main_v22 (F := Ideal) x0) _ (ix5 b i j c l) rfl (ix5 b i j ⟨c.val, h⟩ l) ?_
  intro a
  match a with
  | ⟨0, _⟩ => rfl
  | ⟨1, _⟩ => rfl
  | ⟨2, _⟩ => rfl
  | ⟨3, _⟩ => rfl
  | ⟨4, _⟩ => rfl

/-- From channel 4 on it reads its second operand, the copy that follows agent j, four channels lower. -/
theorem cat_hi (x0 : FVec Ideal S128x128x100 .f32) (b : Fin 128) (i j : Fin 32) (c : Fin 8) (l : Fin 100) (h : 4 ≤ c.val) :
    val_main_v23 (F := Ideal) x0 (ix5 b i j c l)
      = val_main_v22 (F := Ideal) x0 (ix5 b i j ⟨c.val - 4, by have := c.isLt; omega⟩ l) := by
  unfold val_main_v23
  refine concatenate_pair_apply_right (t := S128x32x32x8x100) (s₁ := S128x32x32x4x100) (s₂ := S128x32x32x4x100) 3
    (val_main_v20 (F := Ideal) x0) (val_main_v22 (F := Ideal) x0) _ (ix5 b i j c l) rfl rfl
    (ix5 b i j ⟨c.val - 4, by have := c.isLt; omega⟩ l) ?_ ?_
  · intro a ha
    match a with
    | ⟨0, _⟩ => rfl
    | ⟨1, _⟩ => rfl
    | ⟨2, _⟩ => rfl
    | ⟨3, _⟩ => exact absurd rfl ha
    | ⟨4, _⟩ => rfl
  · show c.val - 4 + 4 = c.val
    omega

/-- Row `row b i j` of the flattened pair matrix: agent i's 400 features, then agent j's. -/
theorem row_eq (x0 : FVec Ideal S128x128x100 .f32) (b : Fin 128) (i j : Fin 32) (k : Fin 800) :
    val_main_v24 (F := Ideal) x0 (ix2 (row b i j) k) = pair (feat x0 b i) (feat x0 b j) k := by
  have hb := b.isLt; have hi := i.isLt; have hj := j.isLt; have hk := k.isLt
  rw [val_main_v24_apply]
  -- the flat position (row · 800 + column) split into batch, agent i, agent j, channel, lane
  have e24 : idx_main_v24 (ix2 (row b i j) k)
      = ix5 b i j ⟨k.val / 100, by omega⟩ ⟨k.val % 100, Nat.mod_lt _ (by decide)⟩ := funext fun a => Fin.ext (by
    match a with
    | ⟨0, _⟩ => show (((b.val * 32 + i.val) * 32 + j.val) * 800 + k.val) / 819200 = b.val; omega
    | ⟨1, _⟩ => show (((b.val * 32 + i.val) * 32 + j.val) * 800 + k.val) / 25600 % 32 = i.val; omega
    | ⟨2, _⟩ => show (((b.val * 32 + i.val) * 32 + j.val) * 800 + k.val) / 800 % 32 = j.val; omega
    | ⟨3, _⟩ => show (((b.val * 32 + i.val) * 32 + j.val) * 800 + k.val) / 100 % 8 = k.val / 100; omega
    | ⟨4, _⟩ => show (((b.val * 32 + i.val) * 32 + j.val) * 800 + k.val) % 100 = k.val % 100; omega)
  rw [e24]
  by_cases h : k.val < 400
  · rw [cat_lo x0 b i j _ _ (show k.val / 100 < 4 by omega), val_main_v20_apply, val_main_v19_apply, val_main_v0_apply]
    unfold pair feat
    rw [dif_pos h]
    congr 1
    funext a
    refine Fin.ext ?_
    match a with
    | ⟨0, _⟩ => show (((b.val * 32 + i.val) * 4 + k.val / 100) * 100 + k.val % 100) / 12800 = b.val; omega
    | ⟨1, _⟩ => show (((b.val * 32 + i.val) * 4 + k.val / 100) * 100 + k.val % 100) / 100 % 128 = 4 * i.val + k.val / 100; omega
    | ⟨2, _⟩ => show (((b.val * 32 + i.val) * 4 + k.val / 100) * 100 + k.val % 100) % 100 = k.val % 100; omega
  · rw [cat_hi x0 b i j _ _ (show 4 ≤ k.val / 100 by omega), val_main_v22_apply, val_main_v21_apply, val_main_v0_apply]
    unfold pair feat
    rw [dif_neg h]
    congr 1
    funext a
    refine Fin.ext ?_
    match a with
    | ⟨0, _⟩ => show (((b.val * 32 + j.val) * 4 + (k.val / 100 - 4)) * 100 + k.val % 100) / 12800 = b.val; omega
    | ⟨1, _⟩ => show (((b.val * 32 + j.val) * 4 + (k.val / 100 - 4)) * 100 + k.val % 100) / 100 % 128 = 4 * j.val + (k.val - 400) / 100; omega
    | ⟨2, _⟩ => show (((b.val * 32 + j.val) * 4 + (k.val / 100 - 4)) * 100 + k.val % 100) % 100 = (k.val - 400) % 100; omega

section Layers

variable (x0 : FVec Ideal S128x128x100 .f32) (x8 : FVec Ideal S800x1024 .f32) (x9 : FVec Ideal S1024 .f32)
  (x10 : FVec Ideal S1024x1024 .f32) (x11 : FVec Ideal S1024 .f32) (x12 : FVec Ideal S1024x1 .f32) (x13 : FVec Ideal S1 .f32)
  (r : Fin 131072) (h : Fin 800 → EReal) (hrow : ∀ k : Fin 800, val_main_v24 (F := Ideal) x0 (ix2 r k) = h k)

include hrow

/-- The first hidden layer at row r: the 800-term sum against the first weight matrix, the bias, the activation. -/
theorem hidden1 (v : Fin 1024) :
    val_main_v29 (F := Ideal) x0 x8 x9 (ix2 r v)
      = relu (dense h (fun k u => x8 (ix2 k u)) (fun u => x9 (ix1 u)) v) := by
  have el : ∀ k : Fin 800, lidx_main_v25 (ix2 r v) k = ix2 r k := fun k => funext fun a => by
    match a with
    | ⟨0, _⟩ => rfl
    | ⟨1, _⟩ => rfl
  have er : ∀ k : Fin 800, ridx_main_v25 (ix2 r v) k = ix2 k v := fun k => funext fun a => by
    match a with
    | ⟨0, _⟩ => rfl
    | ⟨1, _⟩ => rfl
  have eb : idx_main_v26 (idx_main_v27 (ix2 r v)) = ix1 v := funext fun a => by
    match a with
    | ⟨0, _⟩ => rfl
  rw [val_main_v29_apply, val_main_v28_apply, val_main_v25_apply, val_main_v27_apply, val_main_v26_apply,
    val_main_call2_v0_apply, val_main_call2_cst_apply, eb]
  simp only [el, er, hrow, Ideal.addf_def, Ideal.maximumf_def, Ideal.ofBits_def, Ideal.ofBits_zero_f32]
  rfl

/-- The second hidden layer at row r. -/
theorem hidden2 (u : Fin 1024) :
    val_main_v34 (F := Ideal) x0 x8 x9 x10 x11 (ix2 r u)
      = relu (dense (fun v => relu (dense h (fun k u => x8 (ix2 k u)) (fun u => x9 (ix1 u)) v))
          (fun k u => x10 (ix2 k u)) (fun u => x11 (ix1 u)) u) := by
  have el : ∀ k : Fin 1024, lidx_main_v30 (ix2 r u) k = ix2 r k := fun k => funext fun a => by
    match a with
    | ⟨0, _⟩ => rfl
    | ⟨1, _⟩ => rfl
  have er : ∀ k : Fin 1024, ridx_main_v30 (ix2 r u) k = ix2 k u := fun k => funext fun a => by
    match a with
    | ⟨0, _⟩ => rfl
    | ⟨1, _⟩ => rfl
  have eb : idx_main_v31 (idx_main_v32 (ix2 r u)) = ix1 u := funext fun a => by
    match a with
    | ⟨0, _⟩ => rfl
  rw [val_main_v34_apply, val_main_v33_apply, val_main_v30_apply, val_main_v32_apply, val_main_v31_apply,
    val_main_call3_v0_apply, val_main_call3_cst_apply, eb]
  simp only [el, er, hidden1 x0 x8 x9 r h hrow, Ideal.addf_def, Ideal.maximumf_def, Ideal.ofBits_def, Ideal.ofBits_zero_f32]
  rfl

/-- The perceptron's one output at row r. -/
theorem out_eq :
    val_main_v38 (F := Ideal) x0 x8 x9 x10 x11 x12 x13 (ix2 r 0)
      = mlp h (fun k u => x8 (ix2 k u)) (fun u => x9 (ix1 u)) (fun k u => x10 (ix2 k u))
          (fun u => x11 (ix1 u)) (fun k => x12 (ix2 k 0)) (x13 (ix1 0)) := by
  have el : ∀ k : Fin 1024, lidx_main_v35 (ix2 r 0) k = ix2 r k := fun k => funext fun a => by
    match a with
    | ⟨0, _⟩ => rfl
    | ⟨1, _⟩ => rfl
  have er : ∀ k : Fin 1024, ridx_main_v35 (ix2 r 0) k = ix2 k 0 := fun k => funext fun a => by
    match a with
    | ⟨0, _⟩ => rfl
    | ⟨1, _⟩ => rfl
  have eb : idx_main_v36 (idx_main_v37 (ix2 r 0)) = ix1 0 := funext fun a => by
    match a with
    | ⟨0, _⟩ => rfl
  rw [val_main_v38_apply, val_main_v35_apply, val_main_v37_apply, val_main_v36_apply, eb]
  simp only [el, er, hidden2 x0 x8 x9 x10 x11 r h hrow, Ideal.addf_def]
  rfl

end Layers

/-- The pair perceptron's output at (b, i, j) is the perceptron of the concatenated features of agents i and j. -/
theorem pair_entry (x0 : FVec Ideal S128x128x100 .f32) (x8 : FVec Ideal S800x1024 .f32) (x9 : FVec Ideal S1024 .f32)
    (x10 : FVec Ideal S1024x1024 .f32) (x11 : FVec Ideal S1024 .f32) (x12 : FVec Ideal S1024x1 .f32) (x13 : FVec Ideal S1 .f32)
    (b : Fin 128) (i j : Fin 32) :
    val_main_v39 (F := Ideal) x0 x8 x9 x10 x11 x12 x13 (ix3 b i j)
      = mlp (pair (feat x0 b i) (feat x0 b j)) (fun k u => x8 (ix2 k u)) (fun u => x9 (ix1 u)) (fun k u => x10 (ix2 k u))
          (fun u => x11 (ix1 u)) (fun k => x12 (ix2 k 0)) (x13 (ix1 0)) := by
  have e39 : idx_main_v39 (ix3 b i j) = ix2 (row b i j) 0 := funext fun a => Fin.ext (by
    match a with
    | ⟨0, _⟩ => show ((b.val * 32 + i.val) * 32 + j.val) / 1 = (b.val * 32 + i.val) * 32 + j.val; omega
    | ⟨1, _⟩ => rfl)
  rw [val_main_v39_apply, e39]
  exact out_eq x0 x8 x9 x10 x11 x12 x13 (row b i j) _ (row_eq x0 b i j)

end Cert.ReferenceIdeal.RefPairEntry

end
-- ==== Proof.RefPairSum.lean ====
/-
  The reference's interaction term of batch b: the edge-weighted pair energies summed over both agent axes at once
  (from a zero start), which is the iterated sum over i and then j.
-/
import proofs.«101939_j86011015070455_1_alg».proof.Proof.Gen.ReferenceIdeal.Read
import proofs.«101939_j86011015070455_1_alg».proof.Proof.Features
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefPairSum

open Idealize.ShloMosaic Idealize.ShloMosaic.ValueIdx Cert.ReferenceIdeal Cert.ReferenceIdeal.Read Cert.Energy
open scoped BigOperators

/-- Dropping the two trailing axes of a rank-3 index leaves its leading coordinate: the dropped index is the
    rank-1 index at b exactly when the leading coordinate is b. -/
theorem drop_trailing_eq_iff {n0 n1 n2 : ℕ} (h : (⟨3, ![n0, n1, n2]⟩ : Shape).ReducesTo [1, 2] ⟨1, ![n0]⟩)
    (i : (⟨3, ![n0, n1, n2]⟩ : Shape).Idx) (b : Fin n0) : h.drop i = ix1 b ↔ i 0 = b := by
  have hv : (h.drop i 0 : ℕ) = (i 0 : ℕ) := rfl
  constructor
  · intro e
    apply Fin.ext
    rw [← hv, e]
    rfl
  · intro e
    funext d
    match d with
    | ⟨0, _⟩ => exact Fin.ext (hv.trans (congrArg Fin.val e))

/-- The sum over the rank-3 indices whose leading coordinate is b (the indices that drop to b when the two trailing
    axes are reduced) is the iterated sum over the two trailing coordinates. -/
theorem sum_filter_drop_trailing {n0 n1 n2 : ℕ} (h : (⟨3, ![n0, n1, n2]⟩ : Shape).ReducesTo [1, 2] ⟨1, ![n0]⟩)
    (y : (⟨3, ![n0, n1, n2]⟩ : Shape).Idx → EReal) (b : Fin n0) :
    ∑ i ∈ Finset.univ.filter (fun i => h.drop i = ix1 b), y i = ∑ a : Fin n1, ∑ c : Fin n2, y (ix3 b a c) := by
  rw [← Fintype.sum_prod_type' (fun a c => y (ix3 b a c))]
  refine Finset.sum_nbij' (fun i => (i 1, i 2)) (fun p => ix3 b p.1 p.2) ?_ ?_ ?_ ?_ ?_
  · intro i _; exact Finset.mem_univ _
  · intro p _
    rw [Finset.mem_filter]
    exact ⟨Finset.mem_univ _, (drop_trailing_eq_iff h _ b).2 rfl⟩
  · intro i hi
    have hb : i 0 = b := (drop_trailing_eq_iff h i b).1 (Finset.mem_filter.1 hi).2
    subst hb
    exact (eq_ix3 i).symm
  · intro p _; rfl
  · intro i hi
    have hb : i 0 = b := (drop_trailing_eq_iff h i b).1 (Finset.mem_filter.1 hi).2
    subst hb
    exact congrArg y (eq_ix3 i)

/-- The host's sum of a [n0, n1, n2] array over its two trailing axes, read at b: the initial value plus the
    iterated sum over the two trailing coordinates. -/
theorem hostReduceAdd_trailing {n0 n1 n2 : ℕ} (h : (⟨3, ![n0, n1, n2]⟩ : Shape).ReducesTo [1, 2] ⟨1, ![n0]⟩)
    (y : (⟨3, ![n0, n1, n2]⟩ : Shape).Idx → EReal) (init : EReal) (b : Fin n0) :
    Ideal.hostReduceAdd h y init (ix1 b) = init + ∑ a : Fin n1, ∑ c : Fin n2, y (ix3 b a c) := by
  unfold Ideal.hostReduceAdd
  rw [sum_filter_drop_trailing]

/-- The two-axis sum at batch b is the iterated sum of edge weight times pair energy. -/
theorem pair_sum (x0 : FVec Ideal S128x128x100 .f32) (x1 : FVec Ideal S128x32x32 .f32) (x8 : FVec Ideal S800x1024 .f32)
    (x9 : FVec Ideal S1024 .f32) (x10 : FVec Ideal S1024x1024 .f32) (x11 : FVec Ideal S1024 .f32) (x12 : FVec Ideal S1024x1 .f32)
    (x13 : FVec Ideal S1 .f32) (b : Fin 128) :
    val_main_v42 (F := Ideal) x0 x1 x8 x9 x10 x11 x12 x13 (ix2 b 0)
      = ∑ i : Fin 32, ∑ j : Fin 32, x1 (ix3 b i j) * val_main_v39 (F := Ideal) x0 x8 x9 x10 x11 x12 x13 (ix3 b i j) := by
  rw [val_main_v42_apply]
  have hidx : idx_main_v42 (ix2 b 0) = ix1 b := by
    funext a; match a with | ⟨0, _⟩ => rfl
  rw [hidx]
  unfold val_main_v41
  show Ideal.hostReduceAdd _ _ _ (ix1 b) = _
  rw [hostReduceAdd_trailing, val_main_cst_0_apply]
  show Ideal.ofBits .f32 0x00000000#32 + _ = _
  rw [Ideal.ofBits_zero_f32, zero_add]
  rfl

end Cert.ReferenceIdeal.RefPairSum

end
-- ==== Proof.RefTotal.lean ====
/-
  The reference's result at batch b: its trajectory term plus its interaction term, which is the batch element's
  energy with the first pair layer over the concatenated 800 features.
-/
import proofs.«101939_j86011015070455_1_alg».proof.Proof.RefTraj
import proofs.«101939_j86011015070455_1_alg».proof.Proof.RefPairEntry
import proofs.«101939_j86011015070455_1_alg».proof.Proof.RefPairSum

noncomputable section

namespace Cert.ReferenceIdeal.RefTotal

open Idealize.ShloMosaic Idealize.ShloMosaic.ValueIdx Cert.ReferenceIdeal Cert.ReferenceIdeal.Read Cert.Energy
open scoped BigOperators

/-- The reference's result at (b, 0) is batch b's energy. -/
theorem result_entry (x0 : FVec Ideal S128x128x100 .f32) (x1 : FVec Ideal S128x32x32 .f32) (x2 : FVec Ideal S400x1024 .f32) (x3 : FVec Ideal S1024 .f32) (x4 : FVec Ideal S1024x1024 .f32) (x5 : FVec Ideal S1024 .f32) (x6 : FVec Ideal S1024x1 .f32) (x7 : FVec Ideal S1 .f32) (x8 : FVec Ideal S800x1024 .f32) (x9 : FVec Ideal S1024 .f32) (x10 : FVec Ideal S1024x1024 .f32) (x11 : FVec Ideal S1024 .f32) (x12 : FVec Ideal S1024x1 .f32) (x13 : FVec Ideal S1 .f32) (b : Fin 128) :
    val_main_v43 (F := Ideal) x0 x1 x2 x3 x4 x5 x6 x7 x8 x9 x10 x11 x12 x13 (ix2 b 0)
      = total (feat x0 b) (fun i j => x1 (ix3 b i j)) (fun k u => x2 (ix2 k u)) (fun u => x3 (ix1 u)) (fun k u => x4 (ix2 k u)) (fun u => x5 (ix1 u)) (fun k => x6 (ix2 k 0)) (x7 (ix1 0)) (fun k u => x8 (ix2 k u)) (fun u => x9 (ix1 u)) (fun k u => x10 (ix2 k u)) (fun u => x11 (ix1 u)) (fun k => x12 (ix2 k 0)) (x13 (ix1 0)) := by
  show val_main_v18 (F := Ideal) x0 x2 x3 x4 x5 x6 x7 (ix2 b 0) + val_main_v42 (F := Ideal) x0 x1 x8 x9 x10 x11 x12 x13 (ix2 b 0) = _
  rw [RefTraj.traj_sum, RefPairSum.pair_sum]
  unfold total
  congr 1
  refine Finset.sum_congr rfl fun i _ => Finset.sum_congr rfl fun j _ => ?_
  rw [RefPairEntry.pair_entry]

/-- The reference's result as a whole array. -/
theorem result_eq (x0 : FVec Ideal S128x128x100 .f32) (x1 : FVec Ideal S128x32x32 .f32) (x2 : FVec Ideal S400x1024 .f32) (x3 : FVec Ideal S1024 .f32) (x4 : FVec Ideal S1024x1024 .f32) (x5 : FVec Ideal S1024 .f32) (x6 : FVec Ideal S1024x1 .f32) (x7 : FVec Ideal S1 .f32) (x8 : FVec Ideal S800x1024 .f32) (x9 : FVec Ideal S1024 .f32) (x10 : FVec Ideal S1024x1024 .f32) (x11 : FVec Ideal S1024 .f32) (x12 : FVec Ideal S1024x1 .f32) (x13 : FVec Ideal S1 .f32) :
    val_main_v43 (F := Ideal) x0 x1 x2 x3 x4 x5 x6 x7 x8 x9 x10 x11 x12 x13
      = fun y : S128x1.Idx => total (feat x0 (y 0)) (fun i j => x1 (ix3 (y 0) i j)) (fun k u => x2 (ix2 k u)) (fun u => x3 (ix1 u)) (fun k u => x4 (ix2 k u)) (fun u => x5 (ix1 u)) (fun k => x6 (ix2 k 0)) (x7 (ix1 0)) (fun k u => x8 (ix2 k u)) (fun u => x9 (ix1 u)) (fun k u => x10 (ix2 k u)) (fun u => x11 (ix1 u)) (fun k => x12 (ix2 k 0)) (x13 (ix1 0)) := by
  funext y
  have hy : y = ix2 (y 0) (0 : Fin 1) := funext fun a => Fin.ext (by
    match a with
    | ⟨0, _⟩ => rfl
    | ⟨1, _⟩ => show (y 1).val = 0; have h1 : (y 1).val < 1 := (y 1).isLt; omega)
  exact (congrArg (val_main_v43 (F := Ideal) x0 x1 x2 x3 x4 x5 x6 x7 x8 x9 x10 x11 x12 x13) hy).trans
    (result_entry x0 x1 x2 x3 x4 x5 x6 x7 x8 x9 x10 x11 x12 x13 (y 0))

end Cert.ReferenceIdeal.RefTotal

end
-- ==== Proof.lean ====
/-
  The certificate: the pipelined kernel and the plain reference compute the same energies.

  For each of the 128 batch elements both programs return
      Σ_i mlp₁(features of agent i)  +  Σ_i Σ_j edge(i, j) · mlp₂(features of agent i, then of agent j),
  two three-layer perceptrons with activation max(·, 0) and one output.  The kernel computes one batch element per
  grid point, cuts the second perceptron's first weight matrix into its upper and lower 400 rows (so that layer is a
  term of agent i plus a term of agent j), and sums the 32 × 32 weighted pair energies row by row; the reference runs
  both perceptrons over flattened matrices of all batch elements, builds the 800 concatenated features of each pair, and
  sums over both agent axes at once.  On the extended reals every change of float format is the identity and a matrix
  product is a plain sum of products, so the two differ only in how finite sums are grouped (`Cert.Energy.total_eq_block`),
  which needs no finiteness: the precondition is not used.

  The kernel side reads the frame run back (block t of the output is point t's number, the 128 blocks tile the array,
  the host line after the region re-lays it) and evaluates that number over the windows' blocks, each of which is a
  piece of an argument as launched; the reference side reads the host program's run one operation at a time.  The three
  frames are the generated frame runs; the idealization ledger is empty.
-/
import proofs.«101939_j86011015070455_1_alg».proof.Defs
import proofs.«101939_j86011015070455_1_alg».proof.Proof.Gen.Kernel
import proofs.«101939_j86011015070455_1_alg».proof.Proof.Gen.Kernel.Frame
import proofs.«101939_j86011015070455_1_alg».proof.Proof.Gen.KernelIdeal
import proofs.«101939_j86011015070455_1_alg».proof.Proof.Gen.KernelIdeal.Frame
import proofs.«101939_j86011015070455_1_alg».proof.Proof.Gen.ReferenceIdeal
import proofs.«101939_j86011015070455_1_alg».proof.Proof.Gen.Pre_finite_inputs
import proofs.«101939_j86011015070455_1_alg».proof.Proof.Gen.ReferenceIdeal.Run
import proofs.«101939_j86011015070455_1_alg».proof.Proof.Gen.ReferenceIdeal.Read
import proofs.«101939_j86011015070455_1_alg».proof.Proof.KernelValue
import proofs.«101939_j86011015070455_1_alg».proof.Proof.RefTotal
import Idealize.ShloMosaic.Adequacy
import Idealize.ShloMosaic.Init

noncomputable section

namespace Cert.Proof

open Idealize.ShloMosaic Idealize.ShloMosaic.TcCoe Idealize.ShloMosaic.ValueIdx Idealize.SL.Sem Cert.Energy

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The 128 batch energies, as an array, of the fourteen argument arrays. -/
def energies (a0 : FVec Ideal Cert.KernelIdeal.S128x128x100 .f32) (a1 : FVec Ideal Cert.KernelIdeal.S128x32x32 .f32) (a2 : FVec Ideal Cert.KernelIdeal.S400x1024 .f32) (a3 : FVec Ideal Cert.KernelIdeal.S1024 .f32) (a4 : FVec Ideal Cert.KernelIdeal.S1024x1024 .f32) (a5 : FVec Ideal Cert.KernelIdeal.S1024 .f32) (a6 : FVec Ideal Cert.KernelIdeal.S1024x1 .f32) (a7 : FVec Ideal Cert.KernelIdeal.S1 .f32) (a8 : FVec Ideal Cert.KernelIdeal.S800x1024 .f32) (a9 : FVec Ideal Cert.KernelIdeal.S1024 .f32) (a10 : FVec Ideal Cert.KernelIdeal.S1024x1024 .f32) (a11 : FVec Ideal Cert.KernelIdeal.S1024 .f32) (a12 : FVec Ideal Cert.KernelIdeal.S1024x1 .f32) (a13 : FVec Ideal Cert.KernelIdeal.S1 .f32) : FVec Ideal Cert.KernelIdeal.S128x1 .f32 :=
  fun y => total (feat a0 (y 0)) (fun i j => a1 (ix3 (y 0) i j)) (fun k u => a2 (ix2 k u)) (fun u => a3 (ix1 u)) (fun k u => a4 (ix2 k u)) (fun u => a5 (ix1 u)) (fun k => a6 (ix2 k 0)) (a7 (ix1 0)) (fun k u => a8 (ix2 k u)) (fun u => a9 (ix1 u)) (fun k u => a10 (ix2 k u)) (fun u => a11 (ix1 u)) (fun k => a12 (ix2 k 0)) (a13 (ix1 0))

/-- Equal arguments give equal energies. -/
theorem energies_congr {a0 a1 a2 a3 a4 a5 a6 a7 a8 a9 a10 a11 a12 a13 a0' a1' a2' a3' a4' a5' a6' a7' a8' a9' a10' a11' a12' a13' : _}
    (h0 : a0' = a0) (h1 : a1' = a1) (h2 : a2' = a2) (h3 : a3' = a3) (h4 : a4' = a4) (h5 : a5' = a5) (h6 : a6' = a6) (h7 : a7' = a7) (h8 : a8' = a8) (h9 : a9' = a9) (h10 : a10' = a10) (h11 : a11' = a11) (h12 : a12' = a12) (h13 : a13' = a13) :
    energies a0' a1' a2' a3' a4' a5' a6' a7' a8' a9' a10' a11' a12' a13' = energies a0 a1 a2 a3 a4 a5 a6 a7 a8 a9 a10 a11 a12 a13 := by
  subst h0 h1 h2 h3 h4 h5 h6 h7 h8 h9 h10 h11 h12 h13
  rfl

/-- Both runs end with entry (b, 0) of the result at batch b's energy of the (agreeing) arguments. -/
theorem algebraic : Cert.algebraic_KernelIdeal_ReferenceIdeal := by
  intro m ρ m' ρ' _ hagree
  refine ⟨fun c => energies
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono (fun r h c =>
      ⟨(h c).1.trans (funext fun y => Cert.KernelIdeal.KernelValue.energyAt_eq m c (y 0)), (h c).2⟩)
      (Cert.KernelIdeal.BlockRun.run (F := Ideal) m ρ)
  · exact (θ_run Cert.ReferenceIdeal.defs _ _).mono (fun _ h c =>
      ⟨(h c).1.trans ((Cert.ReferenceIdeal.RefTotal.result_eq
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))).trans
          (energies_congr (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2)), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
